-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S100000x64 : Shape := ⟨2, ![100000, 64]⟩
abbrev S1000000 : Shape := ⟨1, ![1000000]⟩
abbrev S128x128 : Shape := ⟨2, ![128, 128]⟩
abbrev S128 : Shape := ⟨1, ![128]⟩
abbrev S128x64 : Shape := ⟨2, ![128, 64]⟩
abbrev S128x256 : Shape := ⟨2, ![128, 256]⟩
abbrev S1x128 : Shape := ⟨2, ![1, 128]⟩
abbrev S1 : Shape := ⟨1, ![1]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S1000000 : S_.BroadcastsInDim S1000000 (![] : Fin 0 → Fin S1000000.rank)
  reducesTo_S1000000_S_d0 : S1000000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg18 : FVec F S128x256 .f32) (main_arg19 : FVec F S128 .f32) (main_arg20 : FVec F S1x128 .f32) (main_arg21 : FVec F S1 .f32) (main_v63 : IVec S_ 1) (main_v67 : IVec S_ 1) : IVec S_ 1 :=
  let main_v68 : IVec S_ 1 := andi main_v63 main_v67
  let main_v69 : FVec F S128x256 .f32 := Host.absf main_arg18
  let main_cst_26 : FVec F S_ .f32 := constant S_ .f32 0x7F800000#32
  let main_v70 : FVec F S128x256 .f32 := broadcastInDim S128x256 ![] bcast_S_S128x256 main_cst_26
  let main_v71 : IVec S128x256 1 := cmpf .olt main_v69 main_v70
  let main_c_27 : IVec S_ 1 := constantI S_ 1 1#1
  let main_v72 : IVec S_ 1 := (fun x v => Host.reduce IntOp.andi x v reducesTo_S128x256_S_d0_1 h_S_) main_v71 main_c_27
  let main_v73 : IVec S_ 1 := andi main_v68 main_v72
  let main_v74 : FVec F S128 .f32 := Host.absf main_arg19
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S1x128 .f32 := Host.absf main_arg20
  let main_cst_30 : FVec F S_ .f32 := constant S_ .f32 0x7F800000#32
  let main_v80 : FVec F S1x128 .f32 := broadcastInDim S1x128 ![] bcast_S_S1x128 main_cst_30
  let main_v81 : IVec S1x128 1 := cmpf .olt main_v79 main_v80
  let main_c_31 : IVec S_ 1 := constantI S_ 1 1#1
  let main_v82 : IVec S_ 1 := (fun x v => Host.reduce IntOp.andi x v reducesTo_S1x128_S_d0_1 h_S_) main_v81 main_c_31
  let main_v83 : IVec S_ 1 := andi main_v78 main_v82
  let main_v84 : FVec F S1 .f32 := Host.absf main_arg21
  let main_cst_32 : FVec F S_ .f32 := constant S_ .f32 0x7F800000#32
  fn_part5 (F := F) main_v83 main_v84 main_cst_32

def fn_part3 {F : FTy → Type} [FloatOps F] (main_arg15 : FVec F S128 .f32) (main_arg16 : FVec F S128x256 .f32) (main_arg17 : FVec F S128 .f32) (main_arg18 : FVec F S128x256 .f32) (main_arg19 : FVec F S128 .f32) (main_arg20 : FVec F S1x128 .f32) (main_arg21 : FVec F S1 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x256 .f32 := Host.absf main_arg16
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg18 main_arg19 main_arg20 main_arg21 main_v63 main_v67

def fn_part2 {F : FTy → Type} [FloatOps F] (main_arg11 : FVec F S128 .f32) (main_arg12 : FVec F S128x128 .f32) (main_arg13 : FVec F S128 .f32) (main_arg14 : FVec F S128x64 .f32) (main_arg15 : FVec F S128 .f32) (main_arg16 : FVec F S128x256 .f32) (main_arg17 : FVec F S128 .f32) (main_arg18 : FVec F S128x256 .f32) (main_arg19 : FVec F S128 .f32) (main_arg20 : FVec F S1x128 .f32) (main_arg21 : FVec F S1 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg14
  let main_cst_18 : FVec F S_ .f32 := constant S_ .f32 0x7F800000#32
  let main_v50 : FVec F S128x64 .f32 := broadcastInDim S128x64 ![] bcast_S_S128x64 main_cst_18
  fn_part3 (F := F) main_arg15 main_arg16 main_arg17 main_arg18 main_arg19 main_arg20 main_arg21 main_v48 main_v49 main_v50

def fn_part1 {F : FTy → Type} [FloatOps F] (main_arg8 : FVec F S128x128 .f32) (main_arg9 : FVec F S128 .f32) (main_arg10 : FVec F S128x64 .f32) (main_arg11 : FVec F S128 .f32) (main_arg12 : FVec F S128x128 .f32) (main_arg13 : FVec F S128 .f32) (main_arg14 : FVec F S128x64 .f32) (main_arg15 : FVec F S128 .f32) (main_arg16 : FVec F S128x256 .f32) (main_arg17 : FVec F S128 .f32) (main_arg18 : FVec F S128x256 .f32) (main_arg19 : FVec F S128 .f32) (main_arg20 : FVec F S1x128 .f32) (main_arg21 : FVec F S1 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg10
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_v33

def fn {F : FTy → Type} [FloatOps F] (main_arg0 : FVec F S200000x128 .f32) (main_arg1 : FVec F S100000x64 .f32) (main_arg2 : IVec S1000000 32) (main_arg3 : IVec S1000000 32) (main_arg4 : FVec F S1000000 .f32) (main_arg5 : IVec S1000000 32) (main_arg6 : IVec S1000000 32) (main_arg7 : FVec F S1000000 .f32) (main_arg8 : FVec F S128x128 .f32) (main_arg9 : FVec F S128 .f32) (main_arg10 : FVec F S128x64 .f32) (main_arg11 : FVec F S128 .f32) (main_arg12 : FVec F S128x128 .f32) (main_arg13 : FVec F S128 .f32) (main_arg14 : FVec F S128x64 .f32) (main_arg15 : FVec F S128 .f32) (main_arg16 : FVec F S128x256 .f32) (main_arg17 : FVec F S128 .f32) (main_arg18 : FVec F S128x256 .f32) (main_arg19 : FVec F S128 .f32) (main_arg20 : FVec F S1x128 .f32) (main_arg21 : FVec F S1 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1000000 .f32 := Host.absf main_arg4
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1000000 .f32 := Host.absf main_arg7
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg8 main_arg9 main_arg10 main_arg11 main_arg12 main_arg13 main_arg14 main_arg15 main_arg16 main_arg17 main_arg18 main_arg19 main_arg20 main_arg21 main_v13 main_v16
-- ==== Kernel.lean ====
abbrev S200000x128 : Shape := ⟨2, ![200000, 128]⟩
abbrev S100000x64 : Shape := ⟨2, ![100000, 64]⟩
abbrev S1000000 : Shape := ⟨1, ![1000000]⟩
abbrev S128x128 : Shape := ⟨2, ![128, 128]⟩
abbrev S128 : Shape := ⟨1, ![128]⟩
abbrev S128x64 : Shape := ⟨2, ![128, 64]⟩
abbrev S128x256 : Shape := ⟨2, ![128, 256]⟩
abbrev S1x128 : Shape := ⟨2, ![1, 128]⟩
abbrev S1 : Shape := ⟨1, ![1]⟩
abbrev S_ : Shape := ⟨0, ![]⟩
abbrev S1000000x1 : Shape := ⟨2, ![1000000, 1]⟩
abbrev S1000000x64 : Shape := ⟨2, ![1000000, 64]⟩
abbrev S1000000x65 : Shape := ⟨2, ![1000000, 65]⟩
abbrev S200000x65 : Shape := ⟨2, ![200000, 65]⟩
abbrev S1x1 : Shape := ⟨2, ![1, 1]⟩
abbrev S200000x1 : Shape := ⟨2, ![200000, 1]⟩
abbrev S4000x128 : Shape := ⟨2, ![4000, 128]⟩
abbrev S4000x65 : Shape := ⟨2, ![4000, 65]⟩
abbrev S4000x1 : Shape := ⟨2, ![4000, 1]⟩
abbrev S4000x64 : Shape := ⟨2, ![4000, 64]⟩
abbrev S4000 : Shape := ⟨1, ![4000]⟩
abbrev S200000 : Shape := ⟨1, ![200000]⟩

abbrev nBuf : Space → Nat
  | .hbm => 52
  | .vmem => 15
  | .smem => 0
  | _ => 0

abbrev bufTy : (tb : Table) → Fin (tcTables nBuf tb) → BufTy
  | .hbm, ⟨0, _⟩ => ⟨S200000x128, .f32⟩
  | .hbm, ⟨1, _⟩ => ⟨S100000x64, .f32⟩
  | .hbm, ⟨2, _⟩ => ⟨S1000000, .i32⟩
  | .hbm, ⟨3, _⟩ => ⟨S1000000, .i32⟩
  | .hbm, ⟨4, _⟩ => ⟨S1000000, .f32⟩
  | .hbm, ⟨5, _⟩ => ⟨S1000000, .i32⟩
  | .hbm, ⟨6, _⟩ => ⟨S1000000, .i32⟩
  | .hbm, ⟨7, _⟩ => ⟨S1000000, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x64, .f32⟩
  | .hbm, ⟨15, _⟩ => ⟨S128, .f32⟩
  | .hbm, ⟨16, _⟩ => ⟨S128x256, .f32⟩
  | .hbm, ⟨17, _⟩ => ⟨S128, .f32⟩
  | .hbm, ⟨18, _⟩ => ⟨S128x256, .f32⟩
  | .hbm, ⟨19, _⟩ => ⟨S128, .f32⟩
  | .hbm, ⟨20, _⟩ => ⟨S1x128, .f32⟩
  | .hbm, ⟨21, _⟩ => ⟨S1, .f32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x64, .f32⟩
  | .hbm, ⟨31, _⟩ => ⟨S1000000x1, .f32⟩
  | .hbm, ⟨32, _⟩ => ⟨S1000000x64, .f32⟩
  | .hbm, ⟨33, _⟩ => ⟨S1000000x64, .f32⟩
  | .hbm, ⟨34, _⟩ => ⟨S1000000x1, .f32⟩
  | .hbm, ⟨35, _⟩ => ⟨S1000000x65, .f32⟩
  | .hbm, ⟨36, _⟩ => ⟨S_, .f32⟩
  | .hbm, ⟨37, _⟩ => ⟨S200000x65, .f32⟩
  | .hbm, ⟨38, _⟩ => ⟨S1000000x1, .i32⟩
  | .hbm, ⟨39, _⟩ => ⟨S200000x65, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x1, .f32⟩
  | .hbm, ⟨44, _⟩ => ⟨S128x128, .bf16⟩
  | .hbm, ⟨45, _⟩ => ⟨S128x64, .bf16⟩
  | .hbm, ⟨46, _⟩ => ⟨S128x128, .f32⟩
  | .hbm, ⟨47, _⟩ => ⟨S128x128, .bf16⟩
  | .hbm, ⟨48, _⟩ => ⟨S128x128, .f32⟩
  | .hbm, ⟨49, _⟩ => ⟨S128x128, .bf16⟩
  | .hbm, ⟨50, _⟩ => ⟨S200000x1, .f32⟩
  | .hbm, ⟨51, _⟩ => ⟨S200000, .f32⟩
  | .local _ .vmem, ⟨0, _⟩ => ⟨S4000x128, .f32⟩
  | .local _ .vmem, ⟨1, _⟩ => ⟨S4000x128, .f32⟩
  | .local _ .vmem, ⟨2, _⟩ => ⟨S4000x65, .f32⟩
  | .local _ .vmem, ⟨3, _⟩ => ⟨S4000x65, .f32⟩
  | .local _ .vmem, ⟨4, _⟩ => ⟨S128x128, .bf16⟩
  | .local _ .vmem, ⟨5, _⟩ => ⟨S1x128, .f32⟩
  | .local _ .vmem, ⟨6, _⟩ => ⟨S128x64, .bf16⟩
  | .local _ .vmem, ⟨7, _⟩ => ⟨S1x128, .f32⟩
  | .local _ .vmem, ⟨8, _⟩ => ⟨S128x128, .bf16⟩
  | .local _ .vmem, ⟨9, _⟩ => ⟨S128x128, .bf16⟩
  | .local _ .vmem, ⟨10, _⟩ => ⟨S1x128, .f32⟩
  | .local _ .vmem, ⟨11, _⟩ => ⟨S1x128, .f32⟩
  | .local _ .vmem, ⟨12, _⟩ => ⟨S1x1, .f32⟩
  | .local _ .vmem, ⟨13, _⟩ => ⟨S4000x1, .f32⟩
  | .local _ .vmem, ⟨14, _⟩ => ⟨S4000x1, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x65 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  concatenates_S1000000x64_S1000000x1_S1000000x65_d1 : Shape.Concatenates [S1000000x64, S1000000x1] S1000000x65 1
  bcast_S_S200000x65 : S_.BroadcastsInDim S200000x65 (![] : Fin 0 → Fin S200000x65.rank)
  shapeCasts_S128_S1x128 : S128.ShapeCasts S1x128
  shapeCasts_S1_S1x1 : S1.ShapeCasts S1x1
  bitsLt_bf16_f32 : FTy.bits .bf16 < FTy.bits .f32
  slices_S128x256_S128x128_0_0 : S128x256.Slices ![0, 0] S128x128
  slices_S128x256_S128x128_0_128 : S128x256.Slices ![0, 128] S128x128
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x65_S4000x65_0_0 : ∀ a, (![0, 0] : Fin 2 → Nat) a + S4000x65.size a ≤ S4000x65.size a
  h_S4000x65 : 0 < S4000x65.numel
  shapeCasts_S4000x65_S4000x65 : S4000x65.ShapeCasts S4000x65
  slices_S4000x65_o0_0_S4000x64 : S4000x65.Slices ![0, 0] S4000x64
  slices_S4000x65_o0_64_S4000x1 : S4000x65.Slices ![0, 64] S4000x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S4000x1_S4000x128 : S4000x1.Broadcasts S4000x128
  reduces_S4000x128_S4000 : S4000x128.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S200000x1_S200000 : S200000x1.ShapeCasts S200000
  gather_S100000x64_S1000000x1_S1000000x64_1_0_n_n_0_1_164_wf : GatherDims.WF S100000x64 S1000000x1 S1000000x64 [1] [0] [] [0] [] 1 ![1, 64]
  scatter_S200000x65_S1000000x1_S1000000x65_1_0_0_1_wf : ScatterDims.WF S200000x65 S1000000x1 S1000000x65 [1] [0] [0] 1
  dot_S4000x128_S128x128_S4000x128_1_1_0_0_n_n_wf : DotDims.WF S4000x128 S128x128 S4000x128 [1] [1] [0] [0] [] []
  dot_S4000x64_S128x64_S4000x128_1_1_0_0_n_n_wf : DotDims.WF S4000x64 S128x64 S4000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x65.size a ≤ S200000x65.size a
  hwx0_1 : ∀ i : grid0.Coords, EltTy.bits .f32 = 32 ∨ (Rect.block (s := S200000x65) S4000x65.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .bf16 = 32 ∨ (Rect.block (s := S128x64) S128x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x1.size a ≤ S200000x1.size a
  hwx0_11 : ∀ i : grid0.Coords, EltTy.bits .f32 = 32 ∨ (Rect.block (s := S200000x1) S4000x1.size (cc0_transform_11 i) (hinb0_11 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S200000x65_S1000000x1_S1000000x65_1_0_0_1 : ScatterDims S200000x65 S1000000x1 S1000000x65 where
  updateWindowDims := [1]
  insertedWindowDims := [0]
  scatterDimsToOperandDims := [0]
  indexVectorDim := 1
  wf := scatter_S200000x65_S1000000x1_S1000000x65_1_0_0_1_wf
def dot_S4000x128_S128x128_S4000x128_1_1_0_0_n_n : DotDims S4000x128 S128x128 S4000x128 where
  lhsContracting := [1]
  rhsContracting := [1]
  lhsNonContracting := [0]
  rhsNonContracting := [0]
  lhsBatch := []
  rhsBatch := []
  wf := dot_S4000x128_S128x128_S4000x128_1_1_0_0_n_n_wf
def dot_S4000x64_S128x64_S4000x128_1_1_0_0_n_n : DotDims S4000x64 S128x64 S4000x128 where
  lhsContracting := [1]
  rhsContracting := [1]
  lhsNonContracting := [0]
  rhsNonContracting := [0]
  lhsBatch := []
  rhsBatch := []
  wf := dot_S4000x64_S128x64_S4000x128_1_1_0_0_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4000x65.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg20) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v25) S4000x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S200000x128 : Shape := ⟨2, ![200000, 128]⟩
abbrev S100000x64 : Shape := ⟨2, ![100000, 64]⟩
abbrev S1000000 : Shape := ⟨1, ![1000000]⟩
abbrev S128x128 : Shape := ⟨2, ![128, 128]⟩
abbrev S128 : Shape := ⟨1, ![128]⟩
abbrev S128x64 : Shape := ⟨2, ![128, 64]⟩
abbrev S128x256 : Shape := ⟨2, ![128, 256]⟩
abbrev S1x128 : Shape := ⟨2, ![1, 128]⟩
abbrev S1 : Shape := ⟨1, ![1]⟩
abbrev S64x128 : Shape := ⟨2, ![64, 128]⟩
abbrev S100000x128 : Shape := ⟨2, ![100000, 128]⟩
abbrev S1000000x1 : Shape := ⟨2, ![1000000, 1]⟩
abbrev S_ : Shape := ⟨0, ![]⟩
abbrev S1000000x128 : Shape := ⟨2, ![1000000, 128]⟩
abbrev S200000x256 : Shape := ⟨2, ![200000, 256]⟩
abbrev S256x128 : Shape := ⟨2, ![256, 128]⟩
abbrev S100000x256 : Shape := ⟨2, ![100000, 256]⟩
abbrev S128x1 : Shape := ⟨2, ![128, 1]⟩
abbrev S200000x1 : Shape := ⟨2, ![200000, 1]⟩
abbrev S1x1 : Shape := ⟨2, ![1, 1]⟩
abbrev S200000 : Shape := ⟨1, ![200000]⟩

abbrev nBuf : Space → Nat
  | .hbm => 106
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S100000x64, .f32⟩
  | .hbm, ⟨2, _⟩ => ⟨S1000000, .i32⟩
  | .hbm, ⟨3, _⟩ => ⟨S1000000, .i32⟩
  | .hbm, ⟨4, _⟩ => ⟨S1000000, .f32⟩
  | .hbm, ⟨5, _⟩ => ⟨S1000000, .i32⟩
  | .hbm, ⟨6, _⟩ => ⟨S1000000, .i32⟩
  | .hbm, ⟨7, _⟩ => ⟨S1000000, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x64, .f32⟩
  | .hbm, ⟨15, _⟩ => ⟨S128, .f32⟩
  | .hbm, ⟨16, _⟩ => ⟨S128x256, .f32⟩
  | .hbm, ⟨17, _⟩ => ⟨S128, .f32⟩
  | .hbm, ⟨18, _⟩ => ⟨S128x256, .f32⟩
  | .hbm, ⟨19, _⟩ => ⟨S128, .f32⟩
  | .hbm, ⟨20, _⟩ => ⟨S1x128, .f32⟩
  | .hbm, ⟨21, _⟩ => ⟨S1, .f32⟩
  | .hbm, ⟨22, _⟩ => ⟨S128x128, .f32⟩
  | .hbm, ⟨23, _⟩ => ⟨S200000x128, .f32⟩
  | .hbm, ⟨24, _⟩ => ⟨S1x128, .f32⟩
  | .hbm, ⟨25, _⟩ => ⟨S200000x128, .f32⟩
  | .hbm, ⟨26, _⟩ => ⟨S200000x128, .f32⟩
  | .hbm, ⟨27, _⟩ => ⟨S64x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S128x128, .f32⟩
  | .hbm, ⟨33, _⟩ => ⟨S200000x128, .f32⟩
  | .hbm, ⟨34, _⟩ => ⟨S1x128, .f32⟩
  | .hbm, ⟨35, _⟩ => ⟨S200000x128, .f32⟩
  | .hbm, ⟨36, _⟩ => ⟨S200000x128, .f32⟩
  | .hbm, ⟨37, _⟩ => ⟨S1000000x1, .f32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S1000000x1, .i32⟩
  | .hbm, ⟨46, _⟩ => ⟨S1000000x128, .f32⟩
  | .hbm, ⟨47, _⟩ => ⟨S1000000x128, .f32⟩
  | .hbm, ⟨48, _⟩ => ⟨S1000000x128, .f32⟩
  | .hbm, ⟨49, _⟩ => ⟨S_, .f32⟩
  | .hbm, ⟨50, _⟩ => ⟨S100000x128, .f32⟩
  | .hbm, ⟨51, _⟩ => ⟨S1000000x1, .i32⟩
  | .hbm, ⟨52, _⟩ => ⟨S100000x128, .f32⟩
  | .hbm, ⟨53, _⟩ => ⟨S64x128, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S1000000x1, .f32⟩
  | .hbm, ⟨59, _⟩ => ⟨S_, .i32⟩
  | .hbm, ⟨60, _⟩ => ⟨S1000000, .i32⟩
  | .hbm, ⟨61, _⟩ => ⟨S1000000, .i1⟩
  | .hbm, ⟨62, _⟩ => ⟨S_, .i32⟩
  | .hbm, ⟨63, _⟩ => ⟨S1000000, .i32⟩
  | .hbm, ⟨64, _⟩ => ⟨S1000000, .i32⟩
  | .hbm, ⟨65, _⟩ => ⟨S1000000, .i32⟩
  | .hbm, ⟨66, _⟩ => ⟨S1000000x1, .i32⟩
  | .hbm, ⟨67, _⟩ => ⟨S1000000x128, .f32⟩
  | .hbm, ⟨68, _⟩ => ⟨S1000000x128, .f32⟩
  | .hbm, ⟨69, _⟩ => ⟨S1000000x128, .f32⟩
  | .hbm, ⟨70, _⟩ => ⟨S_, .f32⟩
  | .hbm, ⟨71, _⟩ => ⟨S200000x128, .f32⟩
  | .hbm, ⟨72, _⟩ => ⟨S1000000x1, .i32⟩
  | .hbm, ⟨73, _⟩ => ⟨S200000x128, .f32⟩
  | .hbm, ⟨74, _⟩ => ⟨S200000x256, .f32⟩
  | .hbm, ⟨75, _⟩ => ⟨S256x128, .f32⟩
  | .hbm, ⟨76, _⟩ => ⟨S200000x128, .f32⟩
  | .hbm, ⟨77, _⟩ => ⟨S1x128, .f32⟩
  | .hbm, ⟨78, _⟩ => ⟨S200000x128, .f32⟩
  | .hbm, ⟨79, _⟩ => ⟨S200000x128, .f32⟩
  | .hbm, ⟨80, _⟩ => ⟨S_, .f32⟩
  | .hbm, ⟨81, _⟩ => ⟨S200000x128, .f32⟩
  | .hbm, ⟨82, _⟩ => ⟨S200000x128, .f32⟩
  | .hbm, ⟨83, _⟩ => ⟨S100000x256, .f32⟩
  | .hbm, ⟨84, _⟩ => ⟨S256x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S128x1, .f32⟩
  | .hbm, ⟨93, _⟩ => ⟨S200000x1, .f32⟩
  | .hbm, ⟨94, _⟩ => ⟨S1x1, .f32⟩
  | .hbm, ⟨95, _⟩ => ⟨S200000x1, .f32⟩
  | .hbm, ⟨96, _⟩ => ⟨S200000x1, .f32⟩
  | .hbm, ⟨97, _⟩ => ⟨S200000x1, .f32⟩
  | .hbm, ⟨98, _⟩ => ⟨S200000x1, .f32⟩
  | .hbm, ⟨99, _⟩ => ⟨S_, .f32⟩
  | .hbm, ⟨100, _⟩ => ⟨S200000x1, .f32⟩
  | .hbm, ⟨101, _⟩ => ⟨S200000x1, .f32⟩
  | .hbm, ⟨102, _⟩ => ⟨S_, .f32⟩
  | .hbm, ⟨103, _⟩ => ⟨S200000x1, .f32⟩
  | .hbm, ⟨104, _⟩ => ⟨S200000x1, .f32⟩
  | .hbm, ⟨105, _⟩ => ⟨S200000, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_0 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_1 : Ref sig .tc := ⟨.hbm, 59, rfl⟩
abbrev main_v34 : Ref sig .tc := ⟨.hbm, 60, rfl⟩
abbrev main_v35 : Ref sig .tc := ⟨.hbm, 61, rfl⟩
abbrev main_c_2 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_3 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call0_cst : Ref sig .tc := ⟨.hbm, 80, rfl⟩
abbrev main_call0_v0 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call1_cst : Ref sig .tc := ⟨.hbm, 89, rfl⟩
abbrev main_call1_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_4 : Ref sig .tc := ⟨.hbm, 99, rfl⟩
abbrev main_v67 : Ref sig .tc := ⟨.hbm, 100, rfl⟩
abbrev main_v68 : Ref sig .tc := ⟨.hbm, 101, rfl⟩
abbrev main_cst_5 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  transposes_S128x64_S64x128_1_0 : S128x64.Transposes [1, 0] S64x128
  bcast_S1x128_S100000x128_0_1 : S1x128.BroadcastsInDim S100000x128 (![0, 1] : Fin 2 → Fin S100000x128.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x128_0_1 : S1000000x1.BroadcastsInDim S1000000x128 (![0, 1] : Fin 2 → Fin S1000000x128.rank)
  bcast_S_S100000x128 : S_.BroadcastsInDim S100000x128 (![] : Fin 0 → Fin S100000x128.rank)
  bcast_S_S200000x128 : S_.BroadcastsInDim S200000x128 (![] : Fin 0 → Fin S200000x128.rank)
  concatenates_S200000x128_S200000x128_S200000x256_d1 : Shape.Concatenates [S200000x128, S200000x128] S200000x256 1
  transposes_S128x256_S256x128_1_0 : S128x256.Transposes [1, 0] S256x128
  concatenates_S100000x128_S100000x128_S100000x256_d1 : Shape.Concatenates [S100000x128, S100000x128] S100000x256 1
  transposes_S1x128_S128x1_1_0 : S1x128.Transposes [1, 0] S128x1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  shapeCasts_S200000x1_S200000 : S200000x1.ShapeCasts S200000
  dot_S200000x128_S128x128_S200000x128_1_0_0_1_n_n_wf : DotDims.WF S200000x128 S128x128 S200000x128 [1] [0] [0] [1] [] []
  dot_S100000x64_S64x128_S100000x128_1_0_0_1_n_n_wf : DotDims.WF S100000x64 S64x128 S100000x128 [1] [0] [0] [1] [] []
  gather_S200000x128_S1000000x1_S1000000x128_1_0_n_n_0_1_1128_wf : GatherDims.WF S200000x128 S1000000x1 S1000000x128 [1] [0] [] [0] [] 1 ![1, 128]
  scatter_S100000x128_S1000000x1_S1000000x128_1_0_0_1_wf : ScatterDims.WF S100000x128 S1000000x1 S1000000x128 [1] [0] [0] 1
  gather_S100000x128_S1000000x1_S1000000x128_1_0_n_n_0_1_1128_wf : GatherDims.WF S100000x128 S1000000x1 S1000000x128 [1] [0] [] [0] [] 1 ![1, 128]
  scatter_S200000x128_S1000000x1_S1000000x128_1_0_0_1_wf : ScatterDims.WF S200000x128 S1000000x1 S1000000x128 [1] [0] [0] 1
  dot_S200000x256_S256x128_S200000x128_1_0_0_1_n_n_wf : DotDims.WF S200000x256 S256x128 S200000x128 [1] [0] [0] [1] [] []
  dot_S100000x256_S256x128_S100000x128_1_0_0_1_n_n_wf : DotDims.WF S100000x256 S256x128 S100000x128 [1] [0] [0] [1] [] []
  dot_S200000x128_S128x1_S200000x1_1_0_0_1_n_n_wf : DotDims.WF S200000x128 S128x1 S200000x1 [1] [0] [0] [1] [] []

variable [Facts₀]

def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.Finite.lean ====
/-
  Under the precondition every float input is finite.  The edge-sum law of the value proof needs this of four
  of them — the merchant features, the edge weights, the relation's matrix and its bias —: each entry is then a
  real number, and sums and products of such entries obey the distributive law.
-/
import proofs.«428456_j40785009443638_2_alg».proof.Proof.Gen.Pre_finite_inputs
import Idealize.ShloMosaic.Lib.ReduceAll
import Idealize.ShloMosaic.Lib.ValueIdx

noncomputable section

namespace Cert.FiniteInputs

open Idealize.ShloMosaic Cert.Pre_finite_inputs

/-- Every entry of the array is a real number (neither infinity). -/
def AllReal {s : Shape} (a : s.Idx → EReal) : Prop := ∀ i, ∃ r : ℝ, a i = (r : EReal)

/-- The scalar shape has exactly one index. -/
private instance subsingleton_scalar_idx : Subsingleton S_.Idx := ⟨fun a b => funext fun d => d.elim0⟩

/-- An extended real whose absolute value `max x (-x)` lies strictly below `⊤` is a real number: the two
    infinities both have absolute value `⊤`. -/
private theorem real_of_abs_lt_top (x : EReal) (hx : max x (-x) < ⊤) : ∃ r : ℝ, x = (r : EReal) := by
  induction x using EReal.rec with
  | bot => simp at hx
  | coe r => exact ⟨r, rfl⟩
  | top => simp at hx

/-- The pattern `0x7F800000` denotes `+∞`, so the comparison `|x| < +∞` coming out 1 says `x` is real. -/
private theorem real_of_cmp (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  apply real_of_abs_lt_top
  by_contra hn
  simp [hn] at h

/-- One conjunct of the precondition: `all (|x| < +∞)`, the reduction by `and` of the elementwise comparison to
    the scalar shape, coming out 1 makes every entry of `x` real. -/
private theorem allReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ValueIdx.ix0 = 1#1) : AllReal x := by
  intro i
  exact real_of_cmp (x i) (Host.reduce_andi_all _ _ hr hu _ e i)

/-- A conjunction of two scalar `i1` words that is 1 has both conjuncts 1. -/
private theorem and_split {p q : IVec S_ 1} (h : andi p q ValueIdx.ix0 = 1#1) :
    p ValueIdx.ix0 = 1#1 ∧ q ValueIdx.ix0 = 1#1 :=
  IntOp.andi_eq_one.1 h

/-- The precondition's conjunction, all ones, makes the merchant features (argument 1), the edge weights
    (argument 7), the relation's matrix (argument 14) and its bias (argument 15) real-valued: each conjunct is
    `all (|x| < +inf)` of one input. -/
theorem real_of_pre (a0 : FVec Ideal S200000x128 .f32) (a1 : FVec Ideal S100000x64 .f32) (a2 a3 : IVec S1000000 32)
    (a4 : FVec Ideal S1000000 .f32) (a5 a6 : IVec S1000000 32) (a7 : FVec Ideal S1000000 .f32)
    (a8 : FVec Ideal S128x128 .f32) (a9 : FVec Ideal S128 .f32) (a10 : FVec Ideal S128x64 .f32)
    (a11 : FVec Ideal S128 .f32) (a12 : FVec Ideal S128x128 .f32) (a13 : FVec Ideal S128 .f32)
    (a14 : FVec Ideal S128x64 .f32) (a15 : FVec Ideal S128 .f32) (a16 : FVec Ideal S128x256 .f32)
    (a17 : FVec Ideal S128 .f32) (a18 : FVec Ideal S128x256 .f32) (a19 : FVec Ideal S128 .f32)
    (a20 : FVec Ideal S1x128 .f32) (a21 : FVec Ideal S1 .f32)
    (h : fn (F := Ideal) a0 a1 a2 a3 a4 a5 a6 a7 a8 a9 a10 a11 a12 a13 a14 a15 a16 a17 a18 a19 a20 a21 = fun _ => 1#1) :
    AllReal a1 ∧ AllReal a7 ∧ AllReal a14 ∧ AllReal a15 := by
  -- the scalar result at its one index
  have h0 := congrFun h ValueIdx.ix0
  unfold fn fn_part1 fn_part2 fn_part3 fn_part4 fn_part5 at h0
  -- the conjunction is nested to the left: c0 ∧ c1 ∧ c4 ∧ c7 ∧ c8 ∧ … ∧ c21; peel the conjuncts off from the right
  obtain ⟨h83, -⟩ := and_split h0
  obtain ⟨h78, -⟩ := and_split h83
  obtain ⟨h73, -⟩ := and_split h78
  obtain ⟨h68, -⟩ := and_split h73
  obtain ⟨h63, -⟩ := and_split h68
  obtain ⟨h58, -⟩ := and_split h63
  -- arguments 15 and 14
  obtain ⟨h53, c15⟩ := and_split h58
  obtain ⟨h48, c14⟩ := and_split h53
  obtain ⟨h43, -⟩ := and_split h48
  obtain ⟨h38, -⟩ := and_split h43
  obtain ⟨h33, -⟩ := and_split h38
  obtain ⟨h28, -⟩ := and_split h33
  obtain ⟨h23, -⟩ := and_split h28
  obtain ⟨h18, -⟩ := and_split h23
  -- argument 7
  obtain ⟨h13, c7⟩ := and_split h18
  obtain ⟨h8, -⟩ := and_split h13
  -- argument 1
  obtain ⟨-, c1⟩ := and_split h8
  exact ⟨allReal_of_all a1 _ _ _ c1, allReal_of_all a7 _ _ _ c7, allReal_of_all a14 _ _ _ c14,
    allReal_of_all a15 _ _ _ c15⟩

end Cert.FiniteInputs

end
-- ==== Proof.Spec.lean ====
/-
  The mathematics of the account head, one destination row at a time.

  For an account row with features `xr` (128 entries) and aggregated neighbour data `ar` (65 entries: the
  weighted sum of the neighbours' 64 raw merchant features, then the weighted degree), the output is
    logistic ( Σ_h  relu( Σ_k proj k · Wc1 h k  +  Σ_k neigh k · Wc2 h k  +  bc h ) · wo h  +  bo ),
    proj k  = Σ_j xr j · Wp k j + bp k,
    neigh k = Σ_d ar d · Wr k d + ar 64 · br k.
  The second line is the relation's linear layer applied AFTER the sum over the incoming edges.  Applied
  BEFORE it, edge by edge, it reads
    neigh' k = Σ_{e lands on the row} w e · ( Σ_d X e d · Wr k d + br k ),
  and the two agree when the weights, features, matrix and bias are real numbers: the edge sum distributes
  over the inner sum and the bias (`edge_sum_linear`).  On extended reals with infinities it need not.
-/
import Idealize.ShloMosaic.Lib.ValueIdx

noncomputable section

open scoped BigOperators

namespace Cert.AcctSpec

open Idealize.ShloMosaic Idealize.ShloMosaic.ValueIdx

/-- A linear layer's output `k` on one row `v`: the row against row `k` of the matrix, plus the bias. -/
def linRow {K H : ℕ} (v : Fin K → EReal) (W : Fin H → Fin K → EReal) (b : Fin H → EReal) (k : Fin H) : EReal :=
  (∑ j : Fin K, v j * W k j) + b k

/-- The relation's layer applied to the aggregated row: the 64 aggregated features against row `k` of the
    matrix, plus the aggregated weight (entry 64) times the bias. -/
def neighRow (ar : Fin 65 → EReal) (Wr : Fin 128 → Fin 64 → EReal) (br : Fin 128 → EReal) (k : Fin 128) : EReal :=
  (∑ d : Fin 64, ar (Fin.castSucc d) * Wr k d) + ar (Fin.last 64) * br k

/-- The head from the two 128-wide halves of the combined row: relu of the two half products plus the bias,
    against the output weights, plus the output bias, through the logistic function. -/
def headRow (proj neigh : Fin 128 → EReal) (Wc1 Wc2 : Fin 128 → Fin 128 → EReal) (bc wo : Fin 128 → EReal)
    (bo : EReal) : EReal :=
  Ideal.logistic ((∑ h : Fin 128,
    max ((((∑ k : Fin 128, proj k * Wc1 h k) + (∑ k : Fin 128, neigh k * Wc2 h k)) + bc h)) 0 * wo h) + bo)

/-- The whole dense stage on one row. -/
def dense (xr : Fin 128 → EReal) (ar : Fin 65 → EReal) (Wp : Fin 128 → Fin 128 → EReal) (bp : Fin 128 → EReal)
    (Wr : Fin 128 → Fin 64 → EReal) (br : Fin 128 → EReal) (Wc1 Wc2 : Fin 128 → Fin 128 → EReal)
    (bc wo : Fin 128 → EReal) (bo : EReal) : EReal :=
  headRow (linRow xr Wp bp) (neighRow ar Wr br) Wc1 Wc2 bc wo bo

/-! ## The edges: which merchant row an edge reads, which edges land on an account row -/

/-- The merchant row edge `e` reads: its (already wrapped) source number read as a signed integer and clamped
    into the table's rows `[0, 99999]`. -/
def rowOf (sw : (⟨1, ![1000000]⟩ : Shape).Idx → BitVec 32) (e : Fin 1000000) : Fin 100000 :=
  ⟨min (sw (ix1 e)).toInt.toNat (100000 - 1), by omega⟩

/-- The edges whose destination number, read as a signed integer, is the account row `n`. -/
def lands (dst : (⟨1, ![1000000]⟩ : Shape).Idx → BitVec 32) (n : Fin 200000) : Finset (Fin 1000000) :=
  Finset.univ.filter fun e => (dst (ix1 e)).toInt = (n.val : ℤ)

/-- The aggregated row of account `n`: for `c < 64` the sum over the landing edges of weight times the source
    row's feature `c`; entry 64 is the sum of the weights. -/
def aggRow (x1 : (⟨2, ![100000, 64]⟩ : Shape).Idx → EReal) (sw dst : (⟨1, ![1000000]⟩ : Shape).Idx → BitVec 32)
    (w : (⟨1, ![1000000]⟩ : Shape).Idx → EReal) (n : Fin 200000) (c : Fin 65) : EReal :=
  ∑ e ∈ lands dst n, if hc : c.val < 64 then w (ix1 e) * x1 (ix2 (rowOf sw e) ⟨c.val, hc⟩) else w (ix1 e)

/-- The neighbour sum with the relation's layer applied edge by edge, before the sum. -/
def neighEdges (x1 : (⟨2, ![100000, 64]⟩ : Shape).Idx → EReal) (sw dst : (⟨1, ![1000000]⟩ : Shape).Idx → BitVec 32)
    (w : (⟨1, ![1000000]⟩ : Shape).Idx → EReal) (Wr : Fin 128 → Fin 64 → EReal) (br : Fin 128 → EReal)
    (n : Fin 200000) (k : Fin 128) : EReal :=
  ∑ e ∈ lands dst n, w (ix1 e) * ((∑ d : Fin 64, x1 (ix2 (rowOf sw e) d) * Wr k d) + br k)

/-! ## The laws -/

/-- The coercion of reals commutes with a finite sum. -/
@[norm_cast]
theorem coe_finsum {ι : Type*} (S : Finset ι) (f : ι → ℝ) : ((∑ i ∈ S, f i : ℝ) : EReal) = ∑ i ∈ S, (f i : EReal) := by
  classical
  induction S using Finset.induction_on with
  | empty => simp
  | insert a s ha ih => rw [Finset.sum_insert ha, Finset.sum_insert ha, EReal.coe_add, ih]

/-- LINEARITY OF THE EDGE SUM, for real weights, features, matrix row and bias: the weighted sum over the edges of
    (features against the matrix row, plus the bias) is the aggregated features against the matrix row plus the
    aggregated weight times the bias.  Distributivity, which holds among reals. -/
theorem edge_sum_linear {ι : Type*} (S : Finset ι) (w : ι → EReal) (X : ι → Fin 64 → EReal) (W : Fin 64 → EReal) (b : EReal)
    (hw : ∀ e, ∃ r : ℝ, w e = (r : EReal)) (hX : ∀ e d, ∃ r : ℝ, X e d = (r : EReal))
    (hW : ∀ d, ∃ r : ℝ, W d = (r : EReal)) (hb : ∃ r : ℝ, b = (r : EReal)) :
    ∑ e ∈ S, w e * ((∑ d, X e d * W d) + b) = (∑ d, (∑ e ∈ S, w e * X e d) * W d) + (∑ e ∈ S, w e) * b := by
  choose w' hw' using hw
  choose X' hX' using hX
  choose W' hW' using hW
  obtain ⟨b', rfl⟩ := hb
  obtain rfl : w = fun e => (w' e : EReal) := funext hw'
  obtain rfl : X = fun e d => (X' e d : EReal) := funext fun e => funext (hX' e)
  obtain rfl : W = fun d => (W' d : EReal) := funext hW'
  have hR : ∑ e ∈ S, w' e * ((∑ d, X' e d * W' d) + b')
      = (∑ d, (∑ e ∈ S, w' e * X' e d) * W' d) + (∑ e ∈ S, w' e) * b' := by
    simp only [mul_add, Finset.sum_add_distrib, Finset.mul_sum, Finset.sum_mul]
    refine congrArg₂ (· + ·) ?_ rfl
    rw [Finset.sum_comm]
    exact Finset.sum_congr rfl fun d _ => Finset.sum_congr rfl fun e _ => (mul_assoc _ _ _).symm
  have hE := congrArg (fun r : ℝ => (r : EReal)) hR
  simpa only [EReal.coe_add, EReal.coe_mul, coe_finsum] using hE

/-- With real features, weights, matrix and bias, the edge-by-edge neighbour sum is the relation's layer applied
    once to the aggregated row. -/
theorem neighEdges_eq (x1 : (⟨2, ![100000, 64]⟩ : Shape).Idx → EReal) (sw dst : (⟨1, ![1000000]⟩ : Shape).Idx → BitVec 32)
    (w : (⟨1, ![1000000]⟩ : Shape).Idx → EReal) (Wr : Fin 128 → Fin 64 → EReal) (br : Fin 128 → EReal)
    (hx : ∀ i, ∃ r : ℝ, x1 i = (r : EReal)) (hw : ∀ i, ∃ r : ℝ, w i = (r : EReal))
    (hW : ∀ k d, ∃ r : ℝ, Wr k d = (r : EReal)) (hb : ∀ k, ∃ r : ℝ, br k = (r : EReal))
    (n : Fin 200000) (k : Fin 128) :
    neighEdges x1 sw dst w Wr br n k = neighRow (aggRow x1 sw dst w n) Wr br k := by
  unfold neighEdges neighRow aggRow
  rw [edge_sum_linear (lands dst n) (fun e => w (ix1 e)) (fun e d => x1 (ix2 (rowOf sw e) d)) (Wr k) (br k)
    (fun e => hw _) (fun e d => hx _) (hW k) (hb k)]
  refine congrArg₂ (· + ·) ?_ ?_
  · refine Finset.sum_congr rfl fun d _ => congrArg (· * Wr k d) ?_
    refine Finset.sum_congr rfl fun e _ => ?_
    rw [dif_pos (show (Fin.castSucc d).val < 64 from d.isLt)]
    rfl
  · refine congrArg (· * br k) ?_
    refine Finset.sum_congr rfl fun e _ => ?_
    rw [dif_neg (show ¬ (Fin.last 64).val < 64 by simp)]

/-- A sum over 256 columns is the sum over the first 128 plus the sum over the last 128. -/
theorem sum_256_split (f : Fin 256 → EReal) :
    ∑ k : Fin 256, f k = (∑ k : Fin 128, f ⟨k.val, by omega⟩) + ∑ k : Fin 128, f ⟨128 + k.val, by omega⟩ :=
  Fin.sum_univ_add (a := 128) (b := 128) f

/-- The combined row: the self projection in columns 0 … 127, the neighbour sum in columns 128 … 255. -/
def catRow (proj neigh : Fin 128 → EReal) (k : Fin 256) : EReal :=
  if hk : k.val < 128 then proj ⟨k.val, hk⟩ else neigh ⟨k.val - 128, by omega⟩

/-- The head as the reference spells it: one product over the 256-wide combined row, the logistic function as
    `1 / (1 + exp (−z))`. -/
def refHead (proj neigh : Fin 128 → EReal) (Wc : Fin 128 → Fin 256 → EReal) (bc wo : Fin 128 → EReal) (bo : EReal) : EReal :=
  Ideal.div 1 (1 + Ideal.exp (-((∑ h : Fin 128,
    max ((∑ k : Fin 256, catRow proj neigh k * Wc h k) + bc h) 0 * wo h) + bo)))

/-- The reference's spelling of the head is the split one: the 256-wide product is the sum of the two half products,
    and `1 / (1 + exp (−z))` is the logistic function's definition. -/
theorem refHead_eq (proj neigh : Fin 128 → EReal) (Wc : Fin 128 → Fin 256 → EReal) (bc wo : Fin 128 → EReal) (bo : EReal) :
    refHead proj neigh Wc bc wo bo
      = headRow proj neigh (fun h k => Wc h ⟨k.val, by omega⟩) (fun h k => Wc h ⟨128 + k.val, by omega⟩) bc wo bo := by
  unfold refHead headRow
  show Ideal.logistic _ = Ideal.logistic _
  refine congrArg Ideal.logistic (congrArg (· + bo) (Finset.sum_congr rfl fun h _ => ?_))
  refine congrArg (fun z => max (z + bc h) 0 * wo h) ?_
  rw [sum_256_split]
  refine congrArg₂ (· + ·) ?_ ?_
  · refine Finset.sum_congr rfl fun k _ => ?_
    unfold catRow
    rw [dif_pos (show (⟨k.val, by omega⟩ : Fin 256).val < 128 from k.isLt)]
  · refine Finset.sum_congr rfl fun k _ => ?_
    unfold catRow
    rw [dif_neg (show ¬ (⟨128 + k.val, by omega⟩ : Fin 256).val < 128 by simp)]
    refine congrArg (fun j => neigh j * _) (Fin.ext ?_)
    show 128 + k.val - 128 = k.val
    omega

/-! ## The result array -/

/-- THE RESULT: entry `n` is the dense stage on account row `n` — row `n` of the features, the aggregated row
    `agg n`, and the weights read off their arrays (the combine matrix's two 128-column halves apart). -/
def acctOut (x0 : (⟨2, ![200000, 128]⟩ : Shape).Idx → EReal) (agg : Fin 200000 → Fin 65 → EReal)
    (Wp : (⟨2, ![128, 128]⟩ : Shape).Idx → EReal) (bp : (⟨1, ![128]⟩ : Shape).Idx → EReal)
    (Wr : (⟨2, ![128, 64]⟩ : Shape).Idx → EReal) (br : (⟨1, ![128]⟩ : Shape).Idx → EReal)
    (Wc : (⟨2, ![128, 256]⟩ : Shape).Idx → EReal) (bc : (⟨1, ![128]⟩ : Shape).Idx → EReal)
    (Wo : (⟨2, ![1, 128]⟩ : Shape).Idx → EReal) (bo : (⟨1, ![1]⟩ : Shape).Idx → EReal) :
    (⟨1, ![200000]⟩ : Shape).Idx → EReal := fun i =>
  dense (fun j => x0 (ix2 (i 0) j)) (agg (i 0)) (fun k j => Wp (ix2 k j)) (fun k => bp (ix1 k))
    (fun k d => Wr (ix2 k d)) (fun k => br (ix1 k))
    (fun h k => Wc (ix2 h (⟨k.val, by omega⟩ : Fin 256))) (fun h k => Wc (ix2 h (⟨128 + k.val, by omega⟩ : Fin 256)))
    (fun h => bc (ix1 h)) (fun h => Wo (ix2 (0 : Fin 1) h)) (bo (ix1 (0 : Fin 1)))

/-- The result array at row `n`. -/
theorem acctOut_apply (x0 : (⟨2, ![200000, 128]⟩ : Shape).Idx → EReal) (agg : Fin 200000 → Fin 65 → EReal)
    (Wp : (⟨2, ![128, 128]⟩ : Shape).Idx → EReal) (bp : (⟨1, ![128]⟩ : Shape).Idx → EReal)
    (Wr : (⟨2, ![128, 64]⟩ : Shape).Idx → EReal) (br : (⟨1, ![128]⟩ : Shape).Idx → EReal)
    (Wc : (⟨2, ![128, 256]⟩ : Shape).Idx → EReal) (bc : (⟨1, ![128]⟩ : Shape).Idx → EReal)
    (Wo : (⟨2, ![1, 128]⟩ : Shape).Idx → EReal) (bo : (⟨1, ![1]⟩ : Shape).Idx → EReal) (n : Fin 200000) :
    acctOut x0 agg Wp bp Wr br Wc bc Wo bo (ix1 n)
      = dense (fun j => x0 (ix2 n j)) (agg n) (fun k j => Wp (ix2 k j)) (fun k => bp (ix1 k))
          (fun k d => Wr (ix2 k d)) (fun k => br (ix1 k))
          (fun h k => Wc (ix2 h (⟨k.val, by omega⟩ : Fin 256))) (fun h k => Wc (ix2 h (⟨128 + k.val, by omega⟩ : Fin 256)))
          (fun h => bc (ix1 h)) (fun h => Wo (ix2 (0 : Fin 1) h)) (bo (ix1 (0 : Fin 1))) := rfl

end Cert.AcctSpec

end
-- ==== Proof.LibRows.lean ====
/-
  General lemmas for ROW indexing by an integer list, as `x[idx]` and `zeros.at[idx].add(u)` lower for a
  rank-2 array and a rank-1 list of row numbers (held as an `[E, 1]` column):

  * a row gather — operand `[N, C]`, start indices `[E, 1]`, result `[E, C]`, the row axis collapsed —
    read at `(e, c)` is the operand at row `idx[e, 0]` (read signed, clamped into `[0, N − 1]`), column `c`;
  * at the ideal values a row scatter-add — operand `[N, C]`, scatter indices `[E, 1]`, updates `[E, C]` —
    read at `(n, c)` is the operand's entry plus the sum, over the list positions `e` whose row number
    `idx[e, 0]` (read signed, not clamped) is `n`, of the updates' entries `(e, c)`.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The dimension numbers of a row gather: operand `[N, C]`, start indices `[E, 1]`, result `[E, C]`. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into
    `[0, N − 1]`, column `c`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap by simp)]
    rw [hs]
    have hk : (rowGatherDims N E C wf).sKept = [(1 : Fin 2)] := rfl
    unfold GatherDims.offCoord
    rw [dif_pos (show (1 : Fin 2) ∈ (rowGatherDims N E C wf).sKept from by rw [hk]; exact List.mem_singleton.mpr rfl)]
    have hi : List.idxOf (1 : Fin 2) (rowGatherDims N E C wf).sKept = 0 := by rw [hk]; exact List.idxOf_cons_self
    simp only [hi, Nat.zero_add]
    rfl

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where the update at `(e, c')` lands: at `(n, c)` exactly when the row number at `e` is `n` and `c' = c`. -/
private theorem rowScatter_resultIdx {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : ℤ) ∧ c' = c := by
  have hs0 : (rowScatterDims N E C wf).start (ix2 e c') idx (0 : Fin 2) = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e c') idx (1 : Fin 2) = 0 := by
    unfold ScatterDims.start
    rw [dif_neg (show (1 : Fin 2) ∉ (rowScatterDims N E C wf).scatterDimsToOperandDims by simp)]
  have hk : (rowScatterDims N E C wf).sKept = [(1 : Fin 2)] := rfl
  have hw0 : (rowScatterDims N E C wf).window (ix2 e c') (0 : Fin 2) = 0 := by
    unfold ScatterDims.window
    rw [dif_neg (show (0 : Fin 2) ∉ (rowScatterDims N E C wf).sKept by rw [hk]; simp)]
  have hw1 : (rowScatterDims N E C wf).window (ix2 e c') (1 : Fin 2) = c'.val := by
    unfold ScatterDims.window
    rw [dif_pos (show (1 : Fin 2) ∈ (rowScatterDims N E C wf).sKept from by rw [hk]; exact List.mem_singleton.mpr rfl)]
    have hi : List.idxOf (1 : Fin 2) (rowScatterDims N E C wf).sKept = 0 := by rw [hk]; exact List.idxOf_cons_self
    simp only [hi]
    rfl
  constructor
  · intro h
    unfold ScatterDims.resultIdx? at h
    split at h
    · rename_i hb
      have h' := Option.some.inj h
      have h0 : ((rowScatterDims N E C wf).start (ix2 e c') idx (0 : Fin 2) + ((rowScatterDims N E C wf).window (ix2 e c') (0 : Fin 2) : ℤ)).toNat = n.val :=
        congrArg (fun f : (⟨2, ![N, C]⟩ : Shape).Idx => (f 0).val) h'
      have h1 : ((rowScatterDims N E C wf).start (ix2 e c') idx (1 : Fin 2) + ((rowScatterDims N E C wf).window (ix2 e c') (1 : Fin 2) : ℤ)).toNat = c.val :=
        congrArg (fun f : (⟨2, ![N, C]⟩ : Shape).Idx => (f 1).val) h'
      have hb0 := (hb 0).1
      have hb1 := (hb 1).1
      rw [hs0, hw0] at h0 hb0
      rw [hs1, hw1] at h1 hb1
      exact ⟨by omega, Fin.ext (by omega)⟩
    · exact absurd h (by simp)
  · rintro ⟨hrow, rfl⟩
    unfold ScatterDims.resultIdx?
    have hb : ∀ a : Fin 2, 0 ≤ (rowScatterDims N E C wf).start (ix2 e c') idx a + ((rowScatterDims N E C wf).window (ix2 e c') a : ℤ)
        ∧ (rowScatterDims N E C wf).start (ix2 e c') idx a + ((rowScatterDims N E C wf).window (ix2 e c') a : ℤ) < ((⟨2, ![N, C]⟩ : Shape).size a : ℤ) := by
      intro a
      match a with
      | ⟨0, _⟩ =>
        show 0 ≤ (rowScatterDims N E C wf).start (ix2 e c') idx (0 : Fin 2) + ((rowScatterDims N E C wf).window (ix2 e c') (0 : Fin 2) : ℤ)
          ∧ (rowScatterDims N E C wf).start (ix2 e c') idx (0 : Fin 2) + ((rowScatterDims N E C wf).window (ix2 e c') (0 : Fin 2) : ℤ) < (N : ℤ)
        rw [hs0, hw0, hrow]
        have := n.isLt
        omega
      | ⟨1, _⟩ =>
        show 0 ≤ (rowScatterDims N E C wf).start (ix2 e c') idx (1 : Fin 2) + ((rowScatterDims N E C wf).window (ix2 e c') (1 : Fin 2) : ℤ)
          ∧ (rowScatterDims N E C wf).start (ix2 e c') idx (1 : Fin 2) + ((rowScatterDims N E C wf).window (ix2 e c') (1 : Fin 2) : ℤ) < (C : ℤ)
        rw [hs1, hw1]
        have := c'.isLt
        omega
    rw [dif_pos hb]
    congr 1
    funext a
    refine Fin.ext ?_
    match a with
    | ⟨0, _⟩ =>
      show ((rowScatterDims N E C wf).start (ix2 e c') idx (0 : Fin 2) + ((rowScatterDims N E C wf).window (ix2 e c') (0 : Fin 2) : ℤ)).toNat = n.val
      rw [hs0, hw0, hrow]
      omega
    | ⟨1, _⟩ =>
      show ((rowScatterDims N E C wf).start (ix2 e c') idx (1 : Fin 2) + ((rowScatterDims N E C wf).window (ix2 e c') (1 : Fin 2) : ℤ)).toNat = c'.val
      rw [hs1, hw1]
      omega

/-- THE ROW SCATTER-ADD READ AT `(n, c)`, at the ideal values: the operand's entry plus the sum of the
    updates' entries `(e, c)` over the positions `e` whose row number is `n`. -/
theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : ℤ)),
          upd (ix2 e c) := by
  show Ideal.hostScatterAdd (rowScatterDims N E C wf) x idx upd (ix2 n c) = _
  unfold Ideal.hostScatterAdd
  congr 1
  rw [Finset.sum_filter, sum_idx2, Finset.sum_filter]
  refine Finset.sum_congr rfl fun e _ => ?_
  simp only [rowScatter_resultIdx]
  by_cases hrow : (idx (ix2 e (0 : Fin 1))).toInt = (n.val : ℤ)
  · simp only [hrow, true_and, if_true]
    rw [Finset.sum_ite_eq' Finset.univ c (fun c' => upd (ix2 e c'))]
    simp only [Finset.mem_univ, if_true]
  · simp only [hrow, false_and, if_false, Finset.sum_const_zero]

end Idealize.ShloMosaic.ValueIdx

end
-- ==== Proof.RefValue.lean ====
/-
  The reference, read one account row at a time.  Its result at row `n` is the head in the reference's own
  spelling (`Cert.AcctSpec.refHead`: one product over the 256-wide combined row, the logistic function written
  `1 / (1 + exp (−z))`) of
    * the self projection of row `n` of the account features, and
    * the neighbour sum with the relation's layer applied edge by edge (`Cert.AcctSpec.neighEdges`): the edges are
      those whose destination is `n`, each reading the merchant row its wrapped, clamped source number names.
  The gather and the scatter are read by the general row lemmas; every other operation by the generated
  read-at-an-index lemmas.
-/
import proofs.«428456_j40785009443638_2_alg».proof.Proof.Gen.ReferenceIdeal.Read
import proofs.«428456_j40785009443638_2_alg».proof.Proof.Spec
import proofs.«428456_j40785009443638_2_alg».proof.Proof.LibRows
import Idealize.ShloMosaic.Lib.IdealHost

noncomputable section

open scoped BigOperators

namespace Cert.ReferenceIdeal.RefValue

open Cert.ReferenceIdeal Cert.ReferenceIdeal.Gen Cert.ReferenceIdeal.Read
open Idealize.ShloMosaic Idealize.ShloMosaic.ValueIdx Cert.AcctSpec

variable (x0 : (⟨S200000x128, .f32⟩ : BufTy).Contents (Elt Ideal)) (x1 : (⟨S100000x64, .f32⟩ : BufTy).Contents (Elt Ideal))
  (x5 x6 : (⟨S1000000, .i32⟩ : BufTy).Contents (Elt Ideal)) (x7 : (⟨S1000000, .f32⟩ : BufTy).Contents (Elt Ideal))
  (x8 : (⟨S128x128, .f32⟩ : BufTy).Contents (Elt Ideal)) (x9 : (⟨S128, .f32⟩ : BufTy).Contents (Elt Ideal))
  (x14 : (⟨S128x64, .f32⟩ : BufTy).Contents (Elt Ideal)) (x15 : (⟨S128, .f32⟩ : BufTy).Contents (Elt Ideal))
  (x16 : (⟨S128x256, .f32⟩ : BufTy).Contents (Elt Ideal)) (x17 : (⟨S128, .f32⟩ : BufTy).Contents (Elt Ideal))
  (x20 : (⟨S1x128, .f32⟩ : BufTy).Contents (Elt Ideal)) (x21 : (⟨S1, .f32⟩ : BufTy).Contents (Elt Ideal))

/-- The self projection at `(n, k)`: row `n` of the features against row `k` of the matrix, plus the bias. -/
theorem proj_at (n : Fin 200000) (k : Fin 128) :
    val_main_v4 (F := Ideal) x0 x8 x9 (ix2 n k)
      = linRow (fun j => x0 (ix2 n j)) (fun k j => x8 (ix2 k j)) (fun k => x9 (ix1 k)) k := by
  rw [val_main_v4_apply, val_main_v1_apply, val_main_v3_apply, val_main_v2_apply]
  simp only [val_main_v0_apply]
  have e1 : ∀ j, lidx_main_v1 (ix2 n k) j = ix2 n j := fun j => funext fun a => by
    match a with | ⟨0, _⟩ => rfl | ⟨1, _⟩ => rfl
  have e2 : ∀ j, idx_main_v0 (ridx_main_v1 (ix2 n k) j) = ix2 k j := fun j => funext fun a => by
    match a with | ⟨0, _⟩ => rfl | ⟨1, _⟩ => rfl
  have e3 : idx_main_v2 (idx_main_v3 (ix2 n k)) = ix1 k := funext fun a => by
    match a with | ⟨0, _⟩ => rfl
  simp only [e1, e2, e3]
  rfl

/-- The relation's layer on merchant row `r`, output `k`. -/
theorem rel_at (r : Fin 100000) (k : Fin 128) :
    val_main_v32 (F := Ideal) x1 x14 x15 (ix2 r k)
      = (∑ d : Fin 64, x1 (ix2 r d) * x14 (ix2 k d)) + x15 (ix1 k) := by
  rw [val_main_v32_apply, val_main_v29_apply, val_main_v31_apply, val_main_v30_apply]
  simp only [val_main_v28_apply]
  have e1 : ∀ d, lidx_main_v29 (ix2 r k) d = ix2 r d := fun d => funext fun a => by
    match a with | ⟨0, _⟩ => rfl | ⟨1, _⟩ => rfl
  have e2 : ∀ d, idx_main_v28 (ridx_main_v29 (ix2 r k) d) = ix2 k d := fun d => funext fun a => by
    match a with | ⟨0, _⟩ => rfl | ⟨1, _⟩ => rfl
  have e3 : idx_main_v30 (idx_main_v31 (ix2 r k)) = ix1 k := funext fun a => by
    match a with | ⟨0, _⟩ => rfl
  simp only [e1, e2, e3]
  rfl

/-- The gathered row of edge `e`: the relation's layer on the merchant row the edge's wrapped source names. -/
theorem gathered_at (e : Fin 1000000) (k : Fin 128) :
    val_main_v40 (F := Ideal) x1 x5 x14 x15 (ix2 e k)
      = val_main_v32 (F := Ideal) x1 x14 x15 (ix2 (rowOf (val_main_v38 (F := Ideal) x5) e) k) := by
  unfold val_main_v40
  have hd : gather_S100000x128_S1000000x1_S1000000x128_1_0_n_n_0_1_1128
      = rowGatherDims 100000 1000000 128 Facts₀.gather_S100000x128_S1000000x1_S1000000x128_1_0_n_n_0_1_1128_wf := rfl
  rw [hd, rowGather_apply (by decide)]
  have e1 : idx_main_v39 (ix2 e (0 : Fin 1)) = ix1 e := funext fun a => by
    match a with | ⟨0, _⟩ => rfl
  refine congrArg (fun r : Fin 100000 => val_main_v32 (F := Ideal) x1 x14 x15 (ix2 r k)) (Fin.ext ?_)
  show min (val_main_v39 (F := Ideal) x5 (ix2 e (0 : Fin 1))).toInt.toNat (100000 - 1)
    = min (val_main_v38 (F := Ideal) x5 (ix1 e)).toInt.toNat (100000 - 1)
  rw [val_main_v39_apply, e1]

/-- The message of edge `e`: its weight times its gathered row. -/
theorem msg_at (e : Fin 1000000) (k : Fin 128) :
    val_main_v42 (F := Ideal) x1 x5 x7 x14 x15 (ix2 e k)
      = x7 (ix1 e) * ((∑ d : Fin 64, x1 (ix2 (rowOf (val_main_v38 (F := Ideal) x5) e) d) * x14 (ix2 k d)) + x15 (ix1 k)) := by
  rw [val_main_v42_apply, val_main_v41_apply, val_main_v33_apply, gathered_at, rel_at]
  have e1 : idx_main_v33 (idx_main_v41 (ix2 e k)) = ix1 e := funext fun a => by
    match a with | ⟨0, _⟩ => rfl
  rw [e1]
  rfl

/-- The neighbour sum at `(n, k)`: the messages of the edges whose destination is `n`. -/
theorem neigh_at (n : Fin 200000) (k : Fin 128) :
    val_main_v45 (F := Ideal) x1 x5 x6 x7 x14 x15 (ix2 n k)
      = neighEdges x1 (val_main_v38 (F := Ideal) x5) x6 x7 (fun k d => x14 (ix2 k d)) (fun k => x15 (ix1 k)) n k := by
  unfold val_main_v45
  have hd : scatter_S200000x128_S1000000x1_S1000000x128_1_0_0_1
      = rowScatterDims 200000 1000000 128 Facts₀.scatter_S200000x128_S1000000x1_S1000000x128_1_0_0_1_wf := rfl
  rw [hd, rowScatterAdd_apply, val_main_v43_apply, val_main_cst_3_apply, Ideal.ofBits_def, Ideal.ofBits_zero_f32, zero_add]
  have hf : ∀ e : Fin 1000000, val_main_v44 (F := Ideal) x6 (ix2 e (0 : Fin 1)) = x6 (ix1 e) := fun e => by
    rw [val_main_v44_apply]
    exact congrArg x6 (funext fun a => by match a with | ⟨0, _⟩ => rfl)
  simp only [hf, msg_at]
  rfl

/-- The combined row at `(n, kk)`: the self projection in the first 128 columns, the neighbour sum in the last. -/
theorem cat_at (n : Fin 200000) (kk : Fin 256) :
    val_main_v46 (F := Ideal) x0 x1 x5 x6 x7 x8 x9 x14 x15 (ix2 n kk)
      = catRow (fun k => val_main_v4 (F := Ideal) x0 x8 x9 (ix2 n k))
          (fun k => val_main_v45 (F := Ideal) x1 x5 x6 x7 x14 x15 (ix2 n k)) kk := by
  unfold val_main_v46 catRow
  by_cases hk : kk.val < 128
  · rw [dif_pos hk]
    exact concatenate_pair_apply_left (t := S200000x256) (s₁ := S200000x128) (s₂ := S200000x128) (1 : Fin 2) _ _ _
      (ix2 n kk) rfl (ix2 n (⟨kk.val, hk⟩ : Fin 128)) (fun b => by
        match b with | ⟨0, _⟩ => rfl | ⟨1, _⟩ => rfl)
  · rw [dif_neg hk]
    exact concatenate_pair_apply_right (t := S200000x256) (s₁ := S200000x128) (s₂ := S200000x128) (1 : Fin 2) _ _ _
      (ix2 n kk) rfl rfl (ix2 n (⟨kk.val - 128, by omega⟩ : Fin 128))
      (fun b hb => by
        match b with
        | ⟨0, _⟩ => rfl
        | ⟨1, _⟩ => exact absurd rfl hb)
      (by show kk.val - 128 + 128 = kk.val; omega)

/-- THE REFERENCE'S RESULT at row `n`: the head, in the reference's spelling, of the self projection and the
    edge-by-edge neighbour sum. -/
theorem result_at (n : Fin 200000) :
    val_main_v71 (F := Ideal) x0 x1 x5 x6 x7 x8 x9 x14 x15 x16 x17 x20 x21 (ix1 n)
      = refHead (linRow (fun j => x0 (ix2 n j)) (fun k j => x8 (ix2 k j)) (fun k => x9 (ix1 k)))
          (neighEdges x1 (val_main_v38 (F := Ideal) x5) x6 x7 (fun k d => x14 (ix2 k d)) (fun k => x15 (ix1 k)) n)
          (fun h kk => x16 (ix2 h kk)) (fun h => x17 (ix1 h)) (fun h => x20 (ix2 (0 : Fin 1) h)) (x21 (ix1 (0 : Fin 1))) := by
  rw [val_main_v71_apply, val_main_v70_apply, val_main_v69_apply, val_main_cst_5_apply, val_main_v68_apply,
    val_main_v67_apply, val_main_cst_4_apply, val_main_v66_apply, val_main_v65_apply, val_main_v64_apply,
    val_main_v61_apply, val_main_v63_apply, val_main_v62_apply]
  simp only [val_main_v52_apply, val_main_v51_apply, val_main_v48_apply, val_main_v47_apply, val_main_v50_apply,
    val_main_v49_apply, val_main_v60_apply, val_main_call0_v0_apply, val_main_call0_cst_apply]
  have e0 : idx_main_v71 (ix1 n) = ix2 n (0 : Fin 1) := funext fun a => by
    match a with
    | ⟨0, _⟩ => exact Fin.ext (Nat.div_one _)
    | ⟨1, _⟩ => rfl
  rw [e0]
  have e1 : ∀ h, lidx_main_v61 (ix2 n (0 : Fin 1)) h = ix2 n h := fun h => funext fun a => by
    match a with | ⟨0, _⟩ => rfl | ⟨1, _⟩ => rfl
  have e2 : ∀ h, idx_main_v60 (ridx_main_v61 (ix2 n (0 : Fin 1)) h) = ix2 (0 : Fin 1) h := fun h => funext fun a => by
    match a with | ⟨0, _⟩ => rfl | ⟨1, _⟩ => rfl
  have e3 : idx_main_v62 (idx_main_v63 (ix2 n (0 : Fin 1))) = ix1 (0 : Fin 1) := funext fun a => by
    match a with | ⟨0, _⟩ => rfl
  have e4 : ∀ (h : Fin 128) kk, lidx_main_v48 (ix2 n h) kk = ix2 n kk := fun h kk => funext fun a => by
    match a with | ⟨0, _⟩ => rfl | ⟨1, _⟩ => rfl
  have e5 : ∀ (h : Fin 128) kk, idx_main_v47 (ridx_main_v48 (ix2 n h) kk) = ix2 h kk := fun h kk => funext fun a => by
    match a with | ⟨0, _⟩ => rfl | ⟨1, _⟩ => rfl
  have e6 : ∀ h : Fin 128, idx_main_v49 (idx_main_v50 (ix2 n h)) = ix1 h := fun h => funext fun a => by
    match a with | ⟨0, _⟩ => rfl
  simp only [e1, e2, e3, e4, e5, e6, cat_at, proj_at, neigh_at, Ideal.ofBits_def, Ideal.ofBits_one_f32,
    Ideal.ofBits_zero_f32]
  rfl

/-- THE REFERENCE IS THE RESULT ARRAY, when the merchant features, the edge weights, the relation's matrix and its
    bias are real-valued: row by row, the reference's spelling of the head is the split one, and its edge-by-edge
    neighbour sum is the relation's layer applied once to the aggregated row. -/
theorem result_eq (hx1 : ∀ i, ∃ r : ℝ, x1 i = (r : EReal)) (hx7 : ∀ i, ∃ r : ℝ, x7 i = (r : EReal))
    (hx14 : ∀ i, ∃ r : ℝ, x14 i = (r : EReal)) (hx15 : ∀ i, ∃ r : ℝ, x15 i = (r : EReal)) :
    val_main_v71 (F := Ideal) x0 x1 x5 x6 x7 x8 x9 x14 x15 x16 x17 x20 x21
      = acctOut x0 (aggRow x1 (val_main_v38 (F := Ideal) x5) x6 x7) x8 x9 x14 x15 x16 x17 x20 x21 := by
  funext i
  obtain ⟨n, rfl⟩ : ∃ n : Fin 200000, i = ix1 n := ⟨i 0, eq_ix1 i⟩
  have hn : neighEdges x1 (val_main_v38 (F := Ideal) x5) x6 x7 (fun k d => x14 (ix2 k d)) (fun k => x15 (ix1 k)) n
      = neighRow (aggRow x1 (val_main_v38 (F := Ideal) x5) x6 x7 n) (fun k d => x14 (ix2 k d)) (fun k => x15 (ix1 k)) :=
    funext fun k => neighEdges_eq x1 (val_main_v38 (F := Ideal) x5) x6 x7 (fun k d => x14 (ix2 k d)) (fun k => x15 (ix1 k))
      hx1 hx7 (fun k d => hx14 (ix2 k d)) (fun k => hx15 (ix1 k)) n k
  rw [result_at, hn, refHead_eq, acctOut_apply]
  rfl

end Cert.ReferenceIdeal.RefValue

end
-- ==== Proof.LibKeepdims.lean ====
/-
  General lemmas for a row reduction kept as a column (`jnp.sum(axis=1, keepdims=True)`): the cast of a
  length-`a` vector to an `[a, 1]` column read at an index, such a column broadcast across `b` lanes read at
  an index, and, at the ideal values, a float sum over axis 1 of an `[a, b]` array read at a row as the sum
  over the row's entries.  Stated over literal coordinates built by `ix1` / `ix2`.
-/
import Idealize.ShloMosaic.Lib.ValueIdx
import Idealize.ShloMosaic.Lib.Pipeline.Value
import Idealize.ShloMosaic.PureOps.Ideal.Laws

noncomputable section

namespace Idealize.ShloMosaic.ValueIdx

open Idealize.ShloMosaic

variable {α : Type}

/-- A length-`a` vector cast to an `[a, 1]` column reads, at `(i, u)`, the vector at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- At the ideal values a float sum over axis 1 of an `[a, b]` array, read at row `i`, is the sum over `d` of the
    entries `(i, d)`. The accumulator's evidence is taken as the equation of words a printed body carries. -/
theorem rowSum_apply {a b : ℕ} (y : FVec Ideal ⟨2, ![a, b]⟩ .f32) (h : Shape.Reduces ⟨2, ![a, b]⟩ [1] ⟨1, ![a]⟩)
    (hφ : FKind.Formats .f32) (hacc : (0x00000000#32 : BitVec 32) = 0x00000000#32) (i : Fin a) :
    multiReduction .add [1] ⟨1, ![a]⟩ y 0x00000000#32 h hφ hacc (ix1 i) = ∑ d : Fin b, y (ix2 i d) := by
  refine (Ideal.multiReduction_add_single y 0x00000000#32 h hφ hacc (ix1 i)).trans ?_
  refine Finset.sum_congr rfl fun d _ => congrArg y ?_
  funext c
  apply Fin.ext
  match c with
  | ⟨0, _⟩ => rfl
  | ⟨1, _⟩ => rfl

end Idealize.ShloMosaic.ValueIdx

end
-- ==== Proof.KernelPay.lean ====
/-
  The kernel body's arithmetic, read at one row of the tile: the value stored at `(p, 0)` is the dense stage
  (`Cert.AcctSpec.dense`) of row `p` of the feature block, row `p` of the aggregate block, and the weights.
-/
import proofs.«428456_j40785009443638_2_alg».proof.Proof.Gen.KernelIdeal.Skeleton
import proofs.«428456_j40785009443638_2_alg».proof.Proof.Spec
import proofs.«428456_j40785009443638_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen Cert.AcctSpec

/-! ## The two contractions read at an index -/

private theorem lhsA_0 (i : S4000x128.Idx) (q : dot_S4000x128_S128x128_S4000x128_1_1_0_0_n_n.contr.Idx) :
    (dot_S4000x128_S128x128_S4000x128_1_1_0_0_n_n.lhsIdx i q 0).val = (i 0).val := by
  unfold DotDims.lhsIdx
  rw [dif_neg (show ¬(0 : Fin S4000x128.rank) ∈ dot_S4000x128_S128x128_S4000x128_1_1_0_0_n_n.lhsBatch by decide), dif_pos (show (0 : Fin S4000x128.rank) ∈ dot_S4000x128_S128x128_S4000x128_1_1_0_0_n_n.lhsNonContracting by decide)]
  rfl
private theorem lhsA_1 (i : S4000x128.Idx) (q : dot_S4000x128_S128x128_S4000x128_1_1_0_0_n_n.contr.Idx) :
    (dot_S4000x128_S128x128_S4000x128_1_1_0_0_n_n.lhsIdx i q 1).val = (q ⟨0, by decide⟩).val :=
  dot_S4000x128_S128x128_S4000x128_1_1_0_0_n_n.lhsIdx_val_of_single rfl i q
private theorem rhsA_0 (i : S4000x128.Idx) (q : dot_S4000x128_S128x128_S4000x128_1_1_0_0_n_n.contr.Idx) :
    (dot_S4000x128_S128x128_S4000x128_1_1_0_0_n_n.rhsIdx i q 0).val = (i 1).val := by
  unfold DotDims.rhsIdx
  rw [dif_neg (show ¬(0 : Fin S128x128.rank) ∈ dot_S4000x128_S128x128_S4000x128_1_1_0_0_n_n.rhsBatch by decide), dif_pos (show (0 : Fin S128x128.rank) ∈ dot_S4000x128_S128x128_S4000x128_1_1_0_0_n_n.rhsNonContracting by decide)]
  rfl
private theorem rhsA_1 (i : S4000x128.Idx) (q : dot_S4000x128_S128x128_S4000x128_1_1_0_0_n_n.contr.Idx) :
    (dot_S4000x128_S128x128_S4000x128_1_1_0_0_n_n.rhsIdx i q 1).val = (q ⟨0, by decide⟩).val :=
  dot_S4000x128_S128x128_S4000x128_1_1_0_0_n_n.rhsIdx_val_of_single rfl i q

/-- A 128-deep contraction of axis 1 of both operands into the zero accumulator: the entry `(p, h)` is the sum over
    `k` of `a (p, k) * b (h, k)`. -/
private theorem matmulA_apply (a : FVec Ideal S4000x128 .bf16) (b : FVec Ideal S128x128 .bf16) (p : Fin 4000) (h : Fin 128) :
    matmul dot_S4000x128_S128x128_S4000x128_1_1_0_0_n_n none a b (constant (F := Ideal) S4000x128 .f32 0x00000000#32) (ix2 p h)
      = ∑ k : Fin 128, a (ix2 p k) * b (ix2 h k) := by
  simp only [matmul]
  rw [Ideal.matmul_constant_zero_apply, ← Equiv.sum_comp (contrEquiv1 dot_S4000x128_S128x128_S4000x128_1_1_0_0_n_n 128 rfl rfl).symm]
  refine Finset.sum_congr rfl fun k _ => ?_
  have hk := contrEquiv1_symm_val dot_S4000x128_S128x128_S4000x128_1_1_0_0_n_n 128 rfl rfl k
  have el : dot_S4000x128_S128x128_S4000x128_1_1_0_0_n_n.lhsIdx (ix2 p h) ((contrEquiv1 dot_S4000x128_S128x128_S4000x128_1_1_0_0_n_n 128 rfl rfl).symm k) = ix2 p k := funext fun c => Fin.ext (by
    match c with
    | ⟨0, _⟩ => exact lhsA_0 _ _
    | ⟨1, _⟩ => exact (lhsA_1 _ _).trans hk)
  have er : dot_S4000x128_S128x128_S4000x128_1_1_0_0_n_n.rhsIdx (ix2 p h) ((contrEquiv1 dot_S4000x128_S128x128_S4000x128_1_1_0_0_n_n 128 rfl rfl).symm k) = ix2 h k := funext fun c => Fin.ext (by
    match c with
    | ⟨0, _⟩ => exact rhsA_0 _ _
    | ⟨1, _⟩ => exact (rhsA_1 _ _).trans hk)
  rw [el, er]

private theorem lhsB_0 (i : S4000x128.Idx) (q : dot_S4000x64_S128x64_S4000x128_1_1_0_0_n_n.contr.Idx) :
    (dot_S4000x64_S128x64_S4000x128_1_1_0_0_n_n.lhsIdx i q 0).val = (i 0).val := by
  unfold DotDims.lhsIdx
  rw [dif_neg (show ¬(0 : Fin S4000x64.rank) ∈ dot_S4000x64_S128x64_S4000x128_1_1_0_0_n_n.lhsBatch by decide), dif_pos (show (0 : Fin S4000x64.rank) ∈ dot_S4000x64_S128x64_S4000x128_1_1_0_0_n_n.lhsNonContracting by decide)]
  rfl
private theorem lhsB_1 (i : S4000x128.Idx) (q : dot_S4000x64_S128x64_S4000x128_1_1_0_0_n_n.contr.Idx) :
    (dot_S4000x64_S128x64_S4000x128_1_1_0_0_n_n.lhsIdx i q 1).val = (q ⟨0, by decide⟩).val :=
  dot_S4000x64_S128x64_S4000x128_1_1_0_0_n_n.lhsIdx_val_of_single rfl i q
private theorem rhsB_0 (i : S4000x128.Idx) (q : dot_S4000x64_S128x64_S4000x128_1_1_0_0_n_n.contr.Idx) :
    (dot_S4000x64_S128x64_S4000x128_1_1_0_0_n_n.rhsIdx i q 0).val = (i 1).val := by
  unfold DotDims.rhsIdx
  rw [dif_neg (show ¬(0 : Fin S128x64.rank) ∈ dot_S4000x64_S128x64_S4000x128_1_1_0_0_n_n.rhsBatch by decide), dif_pos (show (0 : Fin S128x64.rank) ∈ dot_S4000x64_S128x64_S4000x128_1_1_0_0_n_n.rhsNonContracting by decide)]
  rfl
private theorem rhsB_1 (i : S4000x128.Idx) (q : dot_S4000x64_S128x64_S4000x128_1_1_0_0_n_n.contr.Idx) :
    (dot_S4000x64_S128x64_S4000x128_1_1_0_0_n_n.rhsIdx i q 1).val = (q ⟨0, by decide⟩).val :=
  dot_S4000x64_S128x64_S4000x128_1_1_0_0_n_n.rhsIdx_val_of_single rfl i q

/-- A 64-deep contraction of axis 1 of both operands into the zero accumulator: the entry `(p, h)` is the sum over
    `d` of `a (p, d) * b (h, d)`. -/
private theorem matmulB_apply (a : FVec Ideal S4000x64 .bf16) (b : FVec Ideal S128x64 .bf16) (p : Fin 4000) (h : Fin 128) :
    matmul dot_S4000x64_S128x64_S4000x128_1_1_0_0_n_n none a b (constant (F := Ideal) S4000x128 .f32 0x00000000#32) (ix2 p h)
      = ∑ d : Fin 64, a (ix2 p d) * b (ix2 h d) := by
  simp only [matmul]
  rw [Ideal.matmul_constant_zero_apply, ← Equiv.sum_comp (contrEquiv1 dot_S4000x64_S128x64_S4000x128_1_1_0_0_n_n 64 rfl rfl).symm]
  refine Finset.sum_congr rfl fun k _ => ?_
  have hk := contrEquiv1_symm_val dot_S4000x64_S128x64_S4000x128_1_1_0_0_n_n 64 rfl rfl k
  have el : dot_S4000x64_S128x64_S4000x128_1_1_0_0_n_n.lhsIdx (ix2 p h) ((contrEquiv1 dot_S4000x64_S128x64_S4000x128_1_1_0_0_n_n 64 rfl rfl).symm k) = ix2 p k := funext fun c => Fin.ext (by
    match c with
    | ⟨0, _⟩ => exact lhsB_0 _ _
    | ⟨1, _⟩ => exact (lhsB_1 _ _).trans hk)
  have er : dot_S4000x64_S128x64_S4000x128_1_1_0_0_n_n.rhsIdx (ix2 p h) ((contrEquiv1 dot_S4000x64_S128x64_S4000x128_1_1_0_0_n_n 64 rfl rfl).symm k) = ix2 h k := funext fun c => Fin.ext (by
    match c with
    | ⟨0, _⟩ => exact rhsB_0 _ _
    | ⟨1, _⟩ => exact (rhsB_1 _ _).trans hk)
  rw [el, er]

/-! ## The hidden pre-activation at `(p, h)` -/

/-- The projected feature row: row `p` of the feature block against row `k` of the projection matrix, plus the bias. -/
private theorem proj_apply (x0 : FVec Ideal S4000x128 .f32) (x2 : FVec Ideal S128x128 .bf16) (x3 : FVec Ideal S1x128 .f32)
    (p : Fin 4000) (k : Fin 128) :
    addf (matmul dot_S4000x128_S128x128_S4000x128_1_1_0_0_n_n none (truncf .bf16 x0 bitsLt_bf16_f32)
        (shapeCast S128x128 x2 shapeCasts_S128x128_S128x128) (constant (F := Ideal) S4000x128 .f32 0x00000000#32))
      (broadcastTo S4000x128 (shapeCast S1x128 x3 shapeCasts_S1x128_S1x128) broadcasts_S1x128_S4000x128) (ix2 p k)
      = (∑ j : Fin 128, x0 (ix2 p j) * x2 (ix2 k j)) + x3 (ix2 (0 : Fin 1) k) := by
  rw [addf_apply, matmulA_apply, shapeCast_self, shapeCast_self, broadcastTo_1b_ab_apply]
  rfl

/-- The aggregated row through the relation's layer: the 64 feature columns against row `k` of the matrix, plus the
    weight column (column 64) times the bias. -/
private theorem neigh_apply (x1 : FVec Ideal S4000x65 .f32) (x4 : FVec Ideal S128x64 .bf16) (x5 : FVec Ideal S1x128 .f32)
    (p : Fin 4000) (k : Fin 128) :
    addf (matmul dot_S4000x64_S128x64_S4000x128_1_1_0_0_n_n none
          (truncf .bf16 (extractStridedSlice S4000x64 ![0, 0] (shapeCast S4000x65 x1 shapeCasts_S4000x65_S4000x65)
            slices_S4000x65_o0_0_S4000x64) bitsLt_bf16_f32)
          (shapeCast S128x64 x4 shapeCasts_S128x64_S128x64) (constant (F := Ideal) S4000x128 .f32 0x00000000#32))
      (mulf (broadcastTo S4000x128 (extractStridedSlice S4000x1 ![0, 64] (shapeCast S4000x65 x1 shapeCasts_S4000x65_S4000x65)
            slices_S4000x65_o0_64_S4000x1) broadcasts_S4000x1_S4000x128)
          (broadcastTo S4000x128 (shapeCast S1x128 x5 shapeCasts_S1x128_S1x128) broadcasts_S1x128_S4000x128)) (ix2 p k)
      = (∑ d : Fin 64, x1 (ix2 p (Fin.castSucc d)) * x4 (ix2 k d)) + x1 (ix2 p (Fin.last 64)) * x5 (ix2 (0 : Fin 1) k) := by
  rw [addf_apply, matmulB_apply, mulf_apply, shapeCast_self, shapeCast_self, shapeCast_self, broadcastTo_a1_ab_apply,
    broadcastTo_1b_ab_apply, slice2_axis1_apply 64 x1 _ p (0 : Fin 1) (Fin.last 64) rfl]
  refine congrArg (· + _) (Finset.sum_congr rfl fun d _ => ?_)
  rw [truncf_apply, slice2_axis1_apply 0 x1 _ p d (Fin.castSucc d) (by simp)]

/-- The hidden pre-activation at `(p, h)`: the two halves of the combined row against rows `h` of the two halves of the
    combining matrix, plus the bias. -/
private theorem pay2_apply (x0 : FVec Ideal S4000x128 .f32) (x1 : FVec Ideal S4000x65 .f32) (x2 : FVec Ideal S128x128 .bf16)
    (x3 : FVec Ideal S1x128 .f32) (x4 : FVec Ideal S128x64 .bf16) (x5 : FVec Ideal S1x128 .f32)
    (x6 x7 : FVec Ideal S128x128 .bf16) (x8 : FVec Ideal S1x128 .f32) (p : Fin 4000) (h : Fin 128) :
    k0_pay2 (F := Ideal) x0 x2 x3 x1 x4 x5 x6 x7 x8 (ix2 p h)
      = ((∑ k : Fin 128, ((∑ j : Fin 128, x0 (ix2 p j) * x2 (ix2 k j)) + x3 (ix2 (0 : Fin 1) k)) * x6 (ix2 h k))
          + (∑ k : Fin 128, ((∑ d : Fin 64, x1 (ix2 p (Fin.castSucc d)) * x4 (ix2 k d))
              + x1 (ix2 p (Fin.last 64)) * x5 (ix2 (0 : Fin 1) k)) * x7 (ix2 h k)))
        + x8 (ix2 (0 : Fin 1) h) := by
  unfold k0_pay2
  rw [addf_apply, addf_apply, matmulA_apply, matmulA_apply, shapeCast_self x6, shapeCast_self x7, shapeCast_self x8,
    broadcastTo_1b_ab_apply]
  refine congrArg (· + _) (congrArg₂ (· + ·) (Finset.sum_congr rfl fun k _ => ?_) (Finset.sum_congr rfl fun k _ => ?_))
  · rw [truncf_apply, proj_apply]
  · rw [truncf_apply, neigh_apply]

/-! ## The head at row `p` -/

/-- The `[1, 1]` output bias broadcast down the column reads its one entry everywhere. -/
private theorem broadcastTo_11_a1_apply (v : FVec Ideal S1x1 .f32) (p : Fin 4000) (u : Fin 1) :
    broadcastTo S4000x1 v broadcasts_S1x1_S4000x1 (ix2 p u) = v (ix2 (0 : Fin 1) (0 : Fin 1)) := by
  refine broadcastTo_apply v broadcasts_S1x1_S4000x1 (ix2 p u) (ix2 (0 : Fin 1) (0 : Fin 1)) fun ax => ?_
  match ax with
  | ⟨0, _⟩ => rfl
  | ⟨1, _⟩ => rfl

/-- The stored value from the hidden pre-activation `v`: relu, against the output weights, summed along the row, plus
    the output bias, through the logistic function. -/
private theorem pay1_apply (v : FVec Ideal S4000x128 .f32) (x9 : FVec Ideal S1x128 .f32) (x10 : FVec Ideal S1x1 .f32)
    (p : Fin 4000) (u : Fin 1) :
    k0_pay1 (F := Ideal) v (Scalar.ofBits .f32 0x00000000#32) x9 x10 (ix2 p u)
      = Ideal.logistic ((∑ h : Fin 128, max (v (ix2 p h)) 0 * x9 (ix2 (0 : Fin 1) h)) + x10 (ix2 (0 : Fin 1) (0 : Fin 1))) := by
  unfold k0_pay1
  show FloatOps.logistic _ = _
  rw [Ideal.logistic_def, addf_apply, shapeCast_a_a1_apply, rowSum_apply, shapeCast_self x10, broadcastTo_11_a1_apply]
  refine congrArg Ideal.logistic (congrArg (· + _) (Finset.sum_congr rfl fun h _ => ?_))
  rw [mulf_apply, maximumf_apply, broadcast_apply, broadcastTo_1b_ab_apply, Ideal.ofBits_def,
    Ideal.ofBits_zero_f32]

/-- The stored value at row `p` (its one column `u`) of the output tile. -/
theorem pay_apply (x0 : Vec Ideal S4000x128 .f32) (x1 : Vec Ideal S4000x65 .f32) (x2 : Vec Ideal S128x128 .bf16)
    (x3 : Vec Ideal S1x128 .f32) (x4 : Vec Ideal S128x64 .bf16) (x5 : Vec Ideal S1x128 .f32)
    (x6 x7 : Vec Ideal S128x128 .bf16) (x8 x9 : Vec Ideal S1x128 .f32) (x10 : Vec Ideal S1x1 .f32)
    (p : Fin 4000) (u : Fin 1) :
    k0_pay1 (F := Ideal) (k0_pay2 (F := Ideal) x0 x2 x3 x1 x4 x5 x6 x7 x8) (Scalar.ofBits .f32 0x00000000#32) x9 x10 (ix2 p u)
      = dense (fun j => x0 (ix2 p j)) (fun c => x1 (ix2 p c)) (fun k j => x2 (ix2 k j)) (fun k => x3 (ix2 (0 : Fin 1) k))
          (fun k d => x4 (ix2 k d)) (fun k => x5 (ix2 (0 : Fin 1) k)) (fun h k => x6 (ix2 h k)) (fun h k => x7 (ix2 h k))
          (fun h => x8 (ix2 (0 : Fin 1) h)) (fun h => x9 (ix2 (0 : Fin 1) h)) (x10 (ix2 (0 : Fin 1) (0 : Fin 1))) := by
  rw [pay1_apply]
  unfold dense headRow linRow neighRow
  refine congrArg Ideal.logistic (congrArg (· + _) (Finset.sum_congr rfl fun h _ => ?_))
  rw [pay2_apply]

end Cert.KernelIdeal.Body

end
-- ==== Proof.KernelHost.lean ====
/-
  What the region finds in its input arrays, read at coordinates.

  * The aggregate array (`[200000, 65]`): the host builds, per edge, the 65-entry message — the edge's weight times
    the 64 features of the merchant row its wrapped, clamped source number names, then the weight itself — and adds
    every message into the row its destination number names.  Entry `(n, c)` is therefore `Cert.AcctSpec.aggRow`:
    the sum over the edges landing on `n` of entry `c` of their messages.
  * The weights: the matrices as given (a change of float format is the identity on extended reals), the combine
    matrix's two 128-column halves, and the bias vectors recast as `[1, 128]` rows (the output bias as `[1, 1]`).
-/
import proofs.«428456_j40785009443638_2_alg».proof.Proof.Gen.KernelIdeal.Frame
import proofs.«428456_j40785009443638_2_alg».proof.Proof.Spec
import proofs.«428456_j40785009443638_2_alg».proof.Proof.LibRows
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.KernelIdeal.KHost

open Cert.KernelIdeal Cert.KernelIdeal.Gen Idealize.ShloMosaic Idealize.ShloMosaic.TcCoe Idealize.SL.Sem
open Idealize.ShloMosaic.StableHlo Idealize.ShloMosaic.ValueIdx Cert.AcctSpec

/-! ## Columns and lanes -/

/-- A list held as an `[E, 1]` column reads, at `(e, u)`, the list at `e`. -/
theorem col_at {α : Type} (x : S1000000.Idx → α) (e : Fin 1000000) (u : Fin 1) :
    broadcastInDim S1000000x1 ![0] Facts₀.bcast_S1000000_S1000000x1_0 x (ix2 e u) = x (ix1 e) :=
  broadcastInDim_apply _ Facts₀.bcast_S1000000_S1000000x1_0 x (ix2 e u) (ix1 e) (fun a => match a with
    | ⟨0, _⟩ => by show e.val = if (1000000 : Nat) = 1 then 0 else e.val; rw [if_neg (by decide)])

/-- A column spread over 64 lanes reads, at `(e, d)`, the column's entry in row `e`. -/
theorem lanes_at {α : Type} (v : S1000000x1.Idx → α) (e : Fin 1000000) (d : Fin 64) :
    broadcastInDim S1000000x64 ![0, 1] Facts₀.bcast_S1000000x1_S1000000x64_0_1 v (ix2 e d) = v (ix2 e (0 : Fin 1)) :=
  broadcastInDim_apply _ Facts₀.bcast_S1000000x1_S1000000x64_0_1 v (ix2 e d) (ix2 e (0 : Fin 1)) (fun a => match a with
    | ⟨0, _⟩ => by show e.val = if (1000000 : Nat) = 1 then 0 else e.val; rw [if_neg (by decide)]
    | ⟨1, _⟩ => by show 0 = if (1 : Nat) = 1 then 0 else d.val; rw [if_pos rfl])

/-! ## The aggregate -/

/-- The wrapped source numbers: a negative number has the table's height added. -/
def wrapSrc (x5 : IVec S1000000 32) : IVec S1000000 32 :=
  select (cmpi .slt x5 (broadcastInDim S1000000 ![] Facts₀.bcast_S_S1000000 (constantI S_ 32 0#32)))
    (addi x5 (broadcastInDim S1000000 ![] Facts₀.bcast_S_S1000000 (constantI S_ 32 100000#32))) x5

/-- The messages, one 65-entry row per edge. -/
def msgArr (x1 : FVec Ideal S100000x64 .f32) (x5 : IVec S1000000 32) (x7 : FVec Ideal S1000000 .f32) :
    FVec Ideal S1000000x65 .f32 :=
  concatenate S1000000x65 1
    [⟨S1000000x64, mulf (broadcastInDim S1000000x64 ![0, 1] Facts₀.bcast_S1000000x1_S1000000x64_0_1
        (broadcastInDim S1000000x1 ![0] Facts₀.bcast_S1000000_S1000000x1_0 x7))
      (Host.gather gather_S100000x64_S1000000x1_S1000000x64_1_0_n_n_0_1_164 x1
        (broadcastInDim S1000000x1 ![0] Facts₀.bcast_S1000000_S1000000x1_0 (wrapSrc x5)))⟩,
     ⟨S1000000x1, broadcastInDim S1000000x1 ![0] Facts₀.bcast_S1000000_S1000000x1_0 x7⟩]
    Facts₀.concatenates_S1000000x64_S1000000x1_S1000000x65_d1

/-- The aggregate: every message added into the row its destination names, from zero. -/
def aggArr (x1 : FVec Ideal S100000x64 .f32) (x5 x6 : IVec S1000000 32) (x7 : FVec Ideal S1000000 .f32) :
    FVec Ideal S200000x65 .f32 :=
  Host.scatterAdd scatter_S200000x65_S1000000x1_S1000000x65_1_0_0_1
    (broadcastInDim S200000x65 ![] Facts₀.bcast_S_S200000x65 (constant (F := Ideal) S_ .f32 0x00000000#32))
    (broadcastInDim S1000000x1 ![0] Facts₀.bcast_S1000000_S1000000x1_0 x6) (msgArr x1 x5 x7)

/-- Entry `c` of edge `e`'s message. -/
theorem msg_at (x1 : FVec Ideal S100000x64 .f32) (x5 : IVec S1000000 32) (x7 : FVec Ideal S1000000 .f32)
    (e : Fin 1000000) (cc : Fin 65) :
    msgArr x1 x5 x7 (ix2 e cc)
      = if hc : cc.val < 64 then x7 (ix1 e) * x1 (ix2 (rowOf (wrapSrc x5) e) ⟨cc.val, hc⟩) else x7 (ix1 e) := by
  unfold msgArr
  by_cases hc : cc.val < 64
  · rw [dif_pos hc]
    refine (concatenate_pair_apply_left (t := S1000000x65) (s₁ := S1000000x64) (s₂ := S1000000x1) (1 : Fin 2) _ _ _
      (ix2 e cc) rfl (ix2 e (⟨cc.val, hc⟩ : Fin 64)) (fun b => by
        match b with | ⟨0, _⟩ => rfl | ⟨1, _⟩ => rfl)).trans ?_
    rw [mulf_apply, lanes_at, col_at]
    have hd : gather_S100000x64_S1000000x1_S1000000x64_1_0_n_n_0_1_164
        = rowGatherDims 100000 1000000 64 Facts₀.gather_S100000x64_S1000000x1_S1000000x64_1_0_n_n_0_1_164_wf := rfl
    rw [hd, rowGather_apply (by decide)]
    refine congrArg (fun r : Fin 100000 => x7 (ix1 e) * x1 (ix2 r (⟨cc.val, hc⟩ : Fin 64))) (Fin.ext ?_)
    show min (broadcastInDim S1000000x1 ![0] Facts₀.bcast_S1000000_S1000000x1_0 (wrapSrc x5) (ix2 e (0 : Fin 1))).toInt.toNat (100000 - 1)
      = min (wrapSrc x5 (ix1 e)).toInt.toNat (100000 - 1)
    rw [col_at]
  · rw [dif_neg hc]
    have h64 : cc.val = 64 := by have := cc.isLt; omega
    refine (concatenate_pair_apply_right (t := S1000000x65) (s₁ := S1000000x64) (s₂ := S1000000x1) (1 : Fin 2) _ _ _
      (ix2 e cc) rfl rfl (ix2 e (0 : Fin 1))
      (fun b hb => by
        match b with
        | ⟨0, _⟩ => rfl
        | ⟨1, _⟩ => exact absurd rfl hb)
      (by show 0 + 64 = cc.val; omega)).trans ?_
    exact col_at x7 e 0

/-- THE AGGREGATE AT `(n, c)`: the sum over the edges landing on `n` of entry `c` of their messages. -/
theorem agg_at (x1 : FVec Ideal S100000x64 .f32) (x5 x6 : IVec S1000000 32) (x7 : FVec Ideal S1000000 .f32)
    (n : Fin 200000) (cc : Fin 65) :
    aggArr x1 x5 x6 x7 (ix2 n cc) = aggRow x1 (wrapSrc x5) x6 x7 n cc := by
  unfold aggArr
  have hd : scatter_S200000x65_S1000000x1_S1000000x65_1_0_0_1
      = rowScatterDims 200000 1000000 65 Facts₀.scatter_S200000x65_S1000000x1_S1000000x65_1_0_0_1_wf := rfl
  rw [hd, rowScatterAdd_apply]
  have hz : broadcastInDim S200000x65 ![] Facts₀.bcast_S_S200000x65 (constant (F := Ideal) S_ .f32 0x00000000#32) (ix2 n cc) = 0 :=
    (broadcastInDim_apply _ Facts₀.bcast_S_S200000x65 (constant (F := Ideal) S_ .f32 0x00000000#32) (ix2 n cc)
      (fun a => a.elim0) (fun a => a.elim0)).trans Ideal.ofBits_zero_f32
  rw [hz, zero_add]
  unfold aggRow lands
  simp only [msg_at]
  exact Finset.sum_congr (Finset.filter_congr fun e _ => by rw [col_at]) fun e _ => rfl

variable (m : (ℓ : Loc nD τ sig) → Buf (Elt Ideal) ℓ)

set_option maxHeartbeats 4000000 in
/-- The aggregate array as the region finds it. -/
theorem V_agg (c : Dev nD) :
    V m c main_v14 = aggArr (m ((c : Thread nD τ).loc main_arg1)) (m ((c : Thread nD τ).loc main_arg5)) (m ((c : Thread nD τ).loc main_arg6)) (m ((c : Thread nD τ).loc main_arg7)) := by
  show StableHlo.after hostOps0 (fun b => m (c, b)) (Proc.devRef .tc main_v14) = _
  after_results_simp <;> rfl

/-! ## The weights -/

theorem V_wp (c : Dev nD) : V m c main_v19 = (truncf .bf16 (m ((c : Thread nD τ).loc main_arg8)) Facts₀.bitsLt_bf16_f32 : FVec Ideal S128x128 .bf16) := by
  show StableHlo.after hostOps0 (fun b => m (c, b)) (Proc.devRef .tc main_v19) = _
  after_results_simp <;> rfl

theorem V_bp (c : Dev nD) : V m c main_v15 = (shapeCast S1x128 (m ((c : Thread nD τ).loc main_arg9)) Facts₀.shapeCasts_S128_S1x128 : FVec Ideal S1x128 .f32) := by
  show StableHlo.after hostOps0 (fun b => m (c, b)) (Proc.devRef .tc main_v15) = _
  after_results_simp <;> rfl

theorem V_wr (c : Dev nD) : V m c main_v20 = (truncf .bf16 (m ((c : Thread nD τ).loc main_arg14)) Facts₀.bitsLt_bf16_f32 : FVec Ideal S128x64 .bf16) := by
  show StableHlo.after hostOps0 (fun b => m (c, b)) (Proc.devRef .tc main_v20) = _
  after_results_simp <;> rfl

theorem V_br (c : Dev nD) : V m c main_v16 = (shapeCast S1x128 (m ((c : Thread nD τ).loc main_arg15)) Facts₀.shapeCasts_S128_S1x128 : FVec Ideal S1x128 .f32) := by
  show StableHlo.after hostOps0 (fun b => m (c, b)) (Proc.devRef .tc main_v16) = _
  after_results_simp <;> rfl

theorem V_wc1 (c : Dev nD) : V m c main_v22 = (truncf .bf16 (extractStridedSlice S128x128 ![0, 0] (m ((c : Thread nD τ).loc main_arg16)) Facts₀.slices_S128x256_S128x128_0_0) Facts₀.bitsLt_bf16_f32 : FVec Ideal S128x128 .bf16) := by
  show StableHlo.after hostOps0 (fun b => m (c, b)) (Proc.devRef .tc main_v22) = _
  after_results_simp <;> rfl

theorem V_wc2 (c : Dev nD) : V m c main_v24 = (truncf .bf16 (extractStridedSlice S128x128 ![0, 128] (m ((c : Thread nD τ).loc main_arg16)) Facts₀.slices_S128x256_S128x128_0_128) Facts₀.bitsLt_bf16_f32 : FVec Ideal S128x128 .bf16) := by
  show StableHlo.after hostOps0 (fun b => m (c, b)) (Proc.devRef .tc main_v24) = _
  after_results_simp <;> rfl

theorem V_bc (c : Dev nD) : V m c main_v17 = (shapeCast S1x128 (m ((c : Thread nD τ).loc main_arg17)) Facts₀.shapeCasts_S128_S1x128 : FVec Ideal S1x128 .f32) := by
  show StableHlo.after hostOps0 (fun b => m (c, b)) (Proc.devRef .tc main_v17) = _
  after_results_simp <;> rfl

theorem V_bo (c : Dev nD) : V m c main_v18 = (shapeCast S1x1 (m ((c : Thread nD τ).loc main_arg21)) Facts₀.shapeCasts_S1_S1x1 : FVec Ideal S1x1 .f32) := by
  show StableHlo.after hostOps0 (fun b => m (c, b)) (Proc.devRef .tc main_v18) = _
  after_results_simp <;> rfl

end Cert.KernelIdeal.KHost

end
-- ==== Proof.KernelBlocks.lean ====
/-
  The tiles a grid point reads, at coordinates.  Point `t` of the fifty reads rows `4000·t … 4000·t + 3999` of the
  account features and of the aggregate, and the whole of every weight array; each lemma says which entry of which
  launch array an entry of a tile is.
-/
import proofs.«428456_j40785009443638_2_alg».proof.Proof.Gen.KernelIdeal.Frame
import proofs.«428456_j40785009443638_2_alg».proof.Proof.Spec
import proofs.«428456_j40785009443638_2_alg».proof.Proof.KernelHost
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.StableHlo Idealize.ShloMosaic.ValueIdx Cert.AcctSpec Cert.KernelIdeal.KHost

variable (m : (ℓ : Loc nD τ sig) → Buf (Elt Ideal) ℓ) (ρ : Dev nD → PrngReg)

theorem hz : (![0, 0] : Fin 2 → Nat) = fun _ => 0 := funext fun a => by fin_cases a <;> rfl

/-- The aggregated rows, from the launch contents. -/
abbrev aggOf (c : Dev nD) : Fin 200000 → Fin 65 → EReal :=
  aggRow (m ((c : Thread nD τ).loc main_arg1)) (wrapSrc (m ((c : Thread nD τ).loc main_arg5))) (m ((c : Thread nD τ).loc main_arg6)) (m ((c : Thread nD τ).loc main_arg7))

/-- THE RESULT VECTOR, from the launch contents. -/
def outArr (c : Dev nD) : S200000.Idx → EReal :=
  acctOut (m ((c : Thread nD τ).loc main_arg0)) (aggOf m c) (m ((c : Thread nD τ).loc main_arg8)) (m ((c : Thread nD τ).loc main_arg9)) (m ((c : Thread nD τ).loc main_arg14)) (m ((c : Thread nD τ).loc main_arg15))
    (m ((c : Thread nD τ).loc main_arg16)) (m ((c : Thread nD τ).loc main_arg17)) (m ((c : Thread nD τ).loc main_arg20)) (m ((c : Thread nD τ).loc main_arg21))

/-- The same as the `[200000, 1]` column the region writes. -/
def outCol (c : Dev nD) : S200000x1.Idx → EReal := fun i => outArr m c (ix1 (i 0))

/-- The printed index maps over the fifty grid points: the three row-tiled windows (features, aggregate, output) sit at
    block row `t`, block column 0; every weight window at block (0, 0). -/
theorem idx_facts : ∀ t : Fin cfg0.N,
    win0_11.index t (0 : Fin 2) = t.val ∧ win0_11.index t (1 : Fin 2) = 0
    ∧ win0_0.index t (0 : Fin 2) = t.val ∧ win0_0.index t (1 : Fin 2) = 0
    ∧ win0_1.index t (0 : Fin 2) = t.val ∧ win0_1.index t (1 : Fin 2) = 0
    ∧ (∀ a : Fin 2, win0_2.index t a = 0) ∧ (∀ a : Fin 2, win0_3.index t a = 0) ∧ (∀ a : Fin 2, win0_4.index t a = 0)
    ∧ (∀ a : Fin 2, win0_5.index t a = 0) ∧ (∀ a : Fin 2, win0_6.index t a = 0) ∧ (∀ a : Fin 2, win0_7.index t a = 0)
    ∧ (∀ a : Fin 2, win0_8.index t a = 0) ∧ (∀ a : Fin 2, win0_9.index t a = 0) ∧ (∀ a : Fin 2, win0_10.index t a = 0) :=
  (by decide +kernel : ∀ t : Fin grid0.N, _)

/-! ## The blocks at a point, read at coordinates -/

/-- Row `p` of the feature tile at point `t` is row `n = 4000·t + p` of the features. -/
theorem blk0_at (c : Dev nD) (t : Fin cfg0.N) (p : Fin 4000) (j : Fin 128) (n : Fin 200000) (hn : n.val = t.val * 4000 + p.val) :
    iblk m c 0 t (ix2 p j) = (m ((c : Thread nD τ).loc main_arg0)) (ix2 n j) := by
  obtain ⟨-, -, e0, e1, -⟩ := idx_facts t
  show V m c main_arg0 (((cfg0.win 0).blk t).view.emb (ix2 p j)) = _
  rw [V_main_arg0]
  refine congrArg _ (funext fun a => Fin.ext ?_)
  match a with
  | ⟨0, _⟩ => show win0_0.index t (0 : Fin 2) * 4000 + 1 * p.val = n.val; omega
  | ⟨1, _⟩ => show win0_0.index t (1 : Fin 2) * 128 + 1 * j.val = j.val; omega

/-- The aggregate array as the region finds it, named as the second window's array. -/
theorem V_agg1 (c : Dev nD) :
    V m c (Pipeline.arrRef spec0 1)
      = aggArr (m ((c : Thread nD τ).loc main_arg1)) (m ((c : Thread nD τ).loc main_arg5)) (m ((c : Thread nD τ).loc main_arg6)) (m ((c : Thread nD τ).loc main_arg7)) :=
  V_agg m c

/-- An entry of the second window's tile is the entry of its array at the tile's position, whatever the array holds
    (stated for an arbitrary array `A` equal to the one the region finds). -/
theorem tile1_read (c : Dev nD) (t : Fin cfg0.N) (A : Buf (Elt Ideal) ((c : Thread nD τ).loc (Pipeline.arrRef spec0 1)))
    (hA : V m c (Pipeline.arrRef spec0 1) = A) (y : S4000x65.Idx) :
    iblk m c 1 t y = A (((cfg0.win 1).blk t).view.emb y) := by
  unfold iblk
  rw [hA]
  rfl

/-- Row `p` of the aggregate tile at point `t` is the aggregated row of account `n = 4000·t + p`. -/
theorem blk1_at (c : Dev nD) (t : Fin cfg0.N) (p : Fin 4000) (cc : Fin 65) (n : Fin 200000) (hn : n.val = t.val * 4000 + p.val) :
    iblk m c 1 t (ix2 p cc) = aggOf m c n cc := by
  obtain ⟨-, -, -, -, e0, e1, -⟩ := idx_facts t
  have he : ((cfg0.win 1).blk t).view.emb (ix2 p cc) = ix2 n cc := funext fun a => Fin.ext (by
    match a with
    | ⟨0, _⟩ => show win0_1.index t (0 : Fin 2) * 4000 + 1 * p.val = n.val; omega
    | ⟨1, _⟩ => show win0_1.index t (1 : Fin 2) * 65 + 1 * cc.val = cc.val; omega)
  rw [tile1_read m c t _ (V_agg1 m c) (ix2 p cc), he]
  exact agg_at (m ((c : Thread nD τ).loc main_arg1)) (m ((c : Thread nD τ).loc main_arg5)) (m ((c : Thread nD τ).loc main_arg6)) (m ((c : Thread nD τ).loc main_arg7)) n cc

/-- The self projection's matrix, whole at every point. -/
theorem blk2_at (c : Dev nD) (t : Fin cfg0.N) (k j : Fin 128) :
    iblk m c 2 t (ix2 k j) = (m ((c : Thread nD τ).loc main_arg8)) (ix2 k j) := by
  obtain ⟨-, -, -, -, -, -, e, -⟩ := idx_facts t
  show V m c main_v19 (((cfg0.win 2).blk t).view.emb (ix2 k j)) = _
  rw [V_wp]
  show (m ((c : Thread nD τ).loc main_arg8)) (((cfg0.win 2).blk t).view.emb (ix2 k j)) = _
  refine congrArg _ (funext fun a => Fin.ext ?_)
  match a with
  | ⟨0, _⟩ => show win0_2.index t (0 : Fin 2) * 128 + 1 * k.val = k.val; have := e 0; omega
  | ⟨1, _⟩ => show win0_2.index t (1 : Fin 2) * 128 + 1 * j.val = j.val; have := e 1; omega

/-- The self projection's bias, as a `[1, 128]` row. -/
theorem blk3_at (c : Dev nD) (t : Fin cfg0.N) (k : Fin 128) :
    iblk m c 3 t (ix2 (0 : Fin 1) k) = (m ((c : Thread nD τ).loc main_arg9)) (ix1 k) := by
  obtain ⟨-, -, -, -, -, -, -, e, -⟩ := idx_facts t
  show V m c main_v15 (((cfg0.win 3).blk t).view.emb (ix2 (0 : Fin 1) k)) = _
  rw [V_bp]
  have he : ((cfg0.win 3).blk t).view.emb (ix2 (0 : Fin 1) k) = ix2 (0 : Fin 1) k := funext fun a => Fin.ext (by
    match a with
    | ⟨0, _⟩ => show win0_3.index t (0 : Fin 2) * 1 + 1 * 0 = 0; have := e 0; omega
    | ⟨1, _⟩ => show win0_3.index t (1 : Fin 2) * 128 + 1 * k.val = k.val; have := e 1; omega)
  rw [he]
  exact shapeCast_a_1a_apply _ _ 0 k

/-- The relation's matrix. -/
theorem blk4_at (c : Dev nD) (t : Fin cfg0.N) (k : Fin 128) (d : Fin 64) :
    iblk m c 4 t (ix2 k d) = (m ((c : Thread nD τ).loc main_arg14)) (ix2 k d) := by
  obtain ⟨-, -, -, -, -, -, -, -, e, -⟩ := idx_facts t
  show V m c main_v20 (((cfg0.win 4).blk t).view.emb (ix2 k d)) = _
  rw [V_wr]
  show (m ((c : Thread nD τ).loc main_arg14)) (((cfg0.win 4).blk t).view.emb (ix2 k d)) = _
  refine congrArg _ (funext fun a => Fin.ext ?_)
  match a with
  | ⟨0, _⟩ => show win0_4.index t (0 : Fin 2) * 128 + 1 * k.val = k.val; have := e 0; omega
  | ⟨1, _⟩ => show win0_4.index t (1 : Fin 2) * 64 + 1 * d.val = d.val; have := e 1; omega

/-- The relation's bias, as a `[1, 128]` row. -/
theorem blk5_at (c : Dev nD) (t : Fin cfg0.N) (k : Fin 128) :
    iblk m c 5 t (ix2 (0 : Fin 1) k) = (m ((c : Thread nD τ).loc main_arg15)) (ix1 k) := by
  obtain ⟨-, -, -, -, -, -, -, -, -, e, -⟩ := idx_facts t
  show V m c main_v16 (((cfg0.win 5).blk t).view.emb (ix2 (0 : Fin 1) k)) = _
  rw [V_br]
  have he : ((cfg0.win 5).blk t).view.emb (ix2 (0 : Fin 1) k) = ix2 (0 : Fin 1) k := funext fun a => Fin.ext (by
    match a with
    | ⟨0, _⟩ => show win0_5.index t (0 : Fin 2) * 1 + 1 * 0 = 0; have := e 0; omega
    | ⟨1, _⟩ => show win0_5.index t (1 : Fin 2) * 128 + 1 * k.val = k.val; have := e 1; omega)
  rw [he]
  exact shapeCast_a_1a_apply _ _ 0 k

/-- The combine matrix's first 128 columns. -/
theorem blk6_at (c : Dev nD) (t : Fin cfg0.N) (h k : Fin 128) :
    iblk m c 6 t (ix2 h k) = (m ((c : Thread nD τ).loc main_arg16)) (ix2 h (⟨k.val, by omega⟩ : Fin 256)) := by
  obtain ⟨-, -, -, -, -, -, -, -, -, -, e, -⟩ := idx_facts t
  show V m c main_v22 (((cfg0.win 6).blk t).view.emb (ix2 h k)) = _
  rw [V_wc1]
  have he : ((cfg0.win 6).blk t).view.emb (ix2 h k) = ix2 h k := funext fun a => Fin.ext (by
    match a with
    | ⟨0, _⟩ => show win0_6.index t (0 : Fin 2) * 128 + 1 * h.val = h.val; have := e 0; omega
    | ⟨1, _⟩ => show win0_6.index t (1 : Fin 2) * 128 + 1 * k.val = k.val; have := e 1; omega)
  rw [he]
  show extractStridedSlice S128x128 ![0, 0] (m ((c : Thread nD τ).loc main_arg16)) Facts₀.slices_S128x256_S128x128_0_0 (ix2 h k) = _
  exact slice2_axis1_apply 0 _ Facts₀.slices_S128x256_S128x128_0_0 h k (⟨k.val, by omega⟩ : Fin 256) (Nat.zero_add _).symm

/-- The combine matrix's last 128 columns. -/
theorem blk7_at (c : Dev nD) (t : Fin cfg0.N) (h k : Fin 128) :
    iblk m c 7 t (ix2 h k) = (m ((c : Thread nD τ).loc main_arg16)) (ix2 h (⟨128 + k.val, by omega⟩ : Fin 256)) := by
  obtain ⟨-, -, -, -, -, -, -, -, -, -, -, e, -⟩ := idx_facts t
  show V m c main_v24 (((cfg0.win 7).blk t).view.emb (ix2 h k)) = _
  rw [V_wc2]
  have he : ((cfg0.win 7).blk t).view.emb (ix2 h k) = ix2 h k := funext fun a => Fin.ext (by
    match a with
    | ⟨0, _⟩ => show win0_7.index t (0 : Fin 2) * 128 + 1 * h.val = h.val; have := e 0; omega
    | ⟨1, _⟩ => show win0_7.index t (1 : Fin 2) * 128 + 1 * k.val = k.val; have := e 1; omega)
  rw [he]
  show extractStridedSlice S128x128 ![0, 128] (m ((c : Thread nD τ).loc main_arg16)) Facts₀.slices_S128x256_S128x128_0_128 (ix2 h k) = _
  exact slice2_axis1_apply 128 _ Facts₀.slices_S128x256_S128x128_0_128 h k (⟨128 + k.val, by omega⟩ : Fin 256) rfl

/-- The combine bias, as a `[1, 128]` row. -/
theorem blk8_at (c : Dev nD) (t : Fin cfg0.N) (h : Fin 128) :
    iblk m c 8 t (ix2 (0 : Fin 1) h) = (m ((c : Thread nD τ).loc main_arg17)) (ix1 h) := by
  obtain ⟨-, -, -, -, -, -, -, -, -, -, -, -, e, -⟩ := idx_facts t
  show V m c main_v17 (((cfg0.win 8).blk t).view.emb (ix2 (0 : Fin 1) h)) = _
  rw [V_bc]
  have he : ((cfg0.win 8).blk t).view.emb (ix2 (0 : Fin 1) h) = ix2 (0 : Fin 1) h := funext fun a => Fin.ext (by
    match a with
    | ⟨0, _⟩ => show win0_8.index t (0 : Fin 2) * 1 + 1 * 0 = 0; have := e 0; omega
    | ⟨1, _⟩ => show win0_8.index t (1 : Fin 2) * 128 + 1 * h.val = h.val; have := e 1; omega)
  rw [he]
  exact shapeCast_a_1a_apply _ _ 0 h

/-- The output weights, a `[1, 128]` row as given. -/
theorem blk9_at (c : Dev nD) (t : Fin cfg0.N) (h : Fin 128) :
    iblk m c 9 t (ix2 (0 : Fin 1) h) = (m ((c : Thread nD τ).loc main_arg20)) (ix2 (0 : Fin 1) h) := by
  obtain ⟨-, -, -, -, -, -, -, -, -, -, -, -, -, e, -⟩ := idx_facts t
  show V m c main_arg20 (((cfg0.win 9).blk t).view.emb (ix2 (0 : Fin 1) h)) = _
  rw [V_main_arg20]
  refine congrArg _ (funext fun a => Fin.ext ?_)
  match a with
  | ⟨0, _⟩ => show win0_9.index t (0 : Fin 2) * 1 + 1 * 0 = 0; have := e 0; omega
  | ⟨1, _⟩ => show win0_9.index t (1 : Fin 2) * 128 + 1 * h.val = h.val; have := e 1; omega

/-- The output bias, as a `[1, 1]` array. -/
theorem blk10_at (c : Dev nD) (t : Fin cfg0.N) :
    iblk m c 10 t (ix2 (0 : Fin 1) (0 : Fin 1)) = (m ((c : Thread nD τ).loc main_arg21)) (ix1 (0 : Fin 1)) := by
  obtain ⟨-, -, -, -, -, -, -, -, -, -, -, -, -, -, e⟩ := idx_facts t
  show V m c main_v18 (((cfg0.win 10).blk t).view.emb (ix2 (0 : Fin 1) (0 : Fin 1))) = _
  rw [V_bo]
  have he : ((cfg0.win 10).blk t).view.emb (ix2 (0 : Fin 1) (0 : Fin 1)) = ix2 (0 : Fin 1) (0 : Fin 1) := funext fun a => Fin.ext (by
    match a with
    | ⟨0, _⟩ => show win0_10.index t (0 : Fin 2) * 1 + 1 * 0 = 0; have := e 0; omega
    | ⟨1, _⟩ => show win0_10.index t (1 : Fin 2) * 1 + 1 * 0 = 0; have := e 1; omega)
  rw [he]
  exact shapeCast_a_1a_apply _ _ 0 0

end Cert.KernelIdeal.KValue

end
-- ==== Proof.KernelArray.lean ====
/-
  From the tiles to the result.  Grid point `t` handles account rows `4000·t … 4000·t + 3999`: it reads those rows of
  the features and of the aggregate, the whole of every weight array, and writes back the `[4000, 1]` tile whose entry
  `(p, 0)` is the dense stage of row `4000·t + p`.  The fifty tiles cover the `[200000, 1]` output column, so the column
  after the run holds the result at every row; the reshape after the region reads it as the result vector.
-/
import proofs.«428456_j40785009443638_2_alg».proof.Proof.Gen.KernelIdeal.Frame
import proofs.«428456_j40785009443638_2_alg».proof.Proof.Spec
import proofs.«428456_j40785009443638_2_alg».proof.Proof.KernelPay
import proofs.«428456_j40785009443638_2_alg».proof.Proof.KernelHost
import proofs.«428456_j40785009443638_2_alg».proof.Proof.KernelBlocks
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.StableHlo Idealize.ShloMosaic.ValueIdx Cert.AcctSpec Cert.KernelIdeal.KHost Cert.KernelIdeal.Body

variable (m : (ℓ : Loc nD τ sig) → Buf (Elt Ideal) ℓ) (ρ : Dev nD → PrngReg)

/-! ## What a point writes back, the cover, the final column -/

/-- WHAT POINT `t` WRITES BACK is tile `t` of the result column. -/
theorem flushed_eq (c : Dev nD) (t : Fin cfg0.N) :
    (dats m 0 c).flushed 11 t = ((cfg0.win 11).blk t).view.read (Elt Ideal) (outCol m c) := by
  show (cfg0.win 11).cut (grid0.coords t) ((dats m 0 c).after 11 t) = _
  rw [after0_11]
  unfold out0_11
  rw [View.canon_unit_zero hz]
  simp only [View.ld_unit_zero (S := S4000x128) hz, View.ld_unit_zero (S := S4000x65) hz, View.ld_unit_zero (S := S128x128) hz,
    View.ld_unit_zero (S := S1x128) hz, View.ld_unit_zero (S := S128x64) hz, View.ld_unit_zero (S := S1x1) hz]
  funext y
  obtain ⟨p, u, rfl⟩ : ∃ (p : Fin 4000) (u : Fin 1), y = ix2 p u := ⟨y 0, y 1, eq_ix2 y⟩
  have ht : t.val < 50 := lt_of_lt_of_eq t.isLt N_0
  obtain ⟨e0, e1, -⟩ := idx_facts t
  have hrow : (((cfg0.win 11).blk t).view.emb (ix2 p u)) 0 = (⟨t.val * 4000 + p.val, by omega⟩ : Fin 200000) :=
    Fin.ext (by show win0_11.index t (0 : Fin 2) * 4000 + 1 * p.val = t.val * 4000 + p.val; omega)
  refine (pay_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) p u).trans ?_
  show _ = outArr m c (ix1 ((((cfg0.win 11).blk t).view.emb (ix2 p u)) 0))
  rw [hrow]
  unfold outArr
  rw [acctOut_apply]
  have h0 := funext fun j => blk0_at m c t p j ⟨t.val * 4000 + p.val, by omega⟩ rfl
  have h1 := funext fun cc => blk1_at m c t p cc ⟨t.val * 4000 + p.val, by omega⟩ rfl
  have h2 := funext fun k => funext fun j => blk2_at m c t k j
  have h3 := funext fun k => blk3_at m c t k
  have h4 := funext fun k => funext fun d => blk4_at m c t k d
  have h5 := funext fun k => blk5_at m c t k
  have h6 := funext fun h => funext fun k => blk6_at m c t h k
  have h7 := funext fun h => funext fun k => blk7_at m c t h k
  have h8 := funext fun h => blk8_at m c t h
  have h9 := funext fun h => blk9_at m c t h
  rw [h0, h1, h2, h3, h4, h5, h6, h7, h8, h9, blk10_at]

/-- An index of the column is in point `t`'s tile iff each coordinate is in the tile's range on its axis. -/
theorem mem_blk (t : Fin cfg0.N) (i : S200000x1.Idx) :
    i ∈ ((cfg0.win 11).blk t).view.set ↔ ∀ a : Fin 2, win0_11.index t a * S4000x1.size a ≤ (i a).val
      ∧ (i a).val < win0_11.index t a * S4000x1.size a + S4000x1.size a := by
  show i ∈ ((View.whole main_v25).slice (win0_11.rect t)).set ↔ _
  rw [View.set_slice_whole, Rect.mem_set_unit]
  exact Iff.rfl

/-- Every row of the column lies in the tile of the point `row / 4000`. -/
theorem cover (i : S200000x1.Idx) : ∃ t : Fin cfg0.N, (cfg0.win 11).flush t = true ∧ i ∈ ((cfg0.win 11).blk t).view.set := by
  have hi0 : (i 0).val < 200000 := (i 0).isLt
  have hi1 : (i 1).val < 1 := (i 1).isLt
  have hlt : (i 0).val / 4000 < cfg0.N := lt_of_lt_of_eq (by omega : (i 0).val / 4000 < 50) N_0.symm
  obtain ⟨e0, e1, -⟩ := idx_facts ⟨(i 0).val / 4000, hlt⟩
  refine ⟨⟨(i 0).val / 4000, hlt⟩, flush0_11 _, ?_⟩
  rw [mem_blk]
  intro a
  match a with
  | ⟨0, _⟩ =>
    show win0_11.index ⟨(i 0).val / 4000, hlt⟩ (0 : Fin 2) * 4000 ≤ (i 0).val
      ∧ (i 0).val < win0_11.index ⟨(i 0).val / 4000, hlt⟩ (0 : Fin 2) * 4000 + 4000
    have : win0_11.index ⟨(i 0).val / 4000, hlt⟩ (0 : Fin 2) = (i 0).val / 4000 := e0
    omega
  | ⟨1, _⟩ =>
    show win0_11.index ⟨(i 0).val / 4000, hlt⟩ (1 : Fin 2) * 1 ≤ (i 1).val
      ∧ (i 1).val < win0_11.index ⟨(i 0).val / 4000, hlt⟩ (1 : Fin 2) * 1 + 1
    omega

/-- THE OUTPUT COLUMN after the run is the result column. -/
theorem final (c : Dev nD) : (dats m 0 c).arrAt 11 cfg0.N = outCol m c :=
  (dats m 0 c).arrAt_eq_of_cover 11 (outCol m c) (fun t _ => flushed_eq m c t) cover

/-! ## The reshape after the region, and the run -/

/-- The result vector the reshape leaves: the column's entry `(n, 0)` at `n`. -/
theorem tail_eq (c : Dev nD) :
    Pipeline.afterTail₀ cfgs (dats m) 0 (V0 m) [hostOps1] c main_v26 = outArr m c := by
  unfold Pipeline.afterTail₀
  show StableHlo.after hostOps1 _ (Proc.devRef .tc main_v26) = _
  after_results
  rw [(Pipeline.withArrays_arr spec0 launch0.win.arr_inj c _ _ 11).trans (final m c)]
  funext i
  obtain ⟨n, rfl⟩ : ∃ n : Fin 200000, i = ix1 n := ⟨i 0, eq_ix1 i⟩
  exact shapeCast_apply (outCol m c) _ (ix1 n) (ix2 n (0 : Fin 1)) (by
    rw [Shape.rowMajor_val_two, Shape.rowMajor_val_one]
    show n.val * 1 + 0 = n.val
    omega)

/-- THE KERNEL'S RUN, READ: every weakly fair execution terminates with the result buffer at the result vector of the
    launch contents, and every argument as launched. -/
theorem run : θ_run defs (onTc (τ := τ) (main (F := Ideal))) ⟨m, fun _ => 0, ρ⟩ (fun r => ∀ c : Dev nD,
      r.2.mem ((c.tc : Thread nD τ).loc main_v26) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h c).2 main_v26 (Pipeline.mem_restRefs_of main_v26 (by decide) (by decide))).trans (tail_eq m c),
    ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c)),
      ((h c).1 9).trans (((dats m 0 c).arrAt_in 9 rfl _).trans ((A_eq m c 9).trans (V_main_arg20 m c))),
      (((h c).2 main_arg21 (Pipeline.mem_restRefs_of main_arg21 (by decide) (by decide))).trans (W_main_arg21 m (dats m) c))⟩) (run_main m ρ)

end Cert.KernelIdeal.KValue

end
-- ==== Proof.lean ====
/-
  The kernel computes, for each of 200000 account rows,
      sigmoid( relu( [proj | neigh] · Wcᵀ + bc ) · Woᵀ + bo ),
  with proj the row's own projection and neigh the weighted sum, over the edges arriving at the row, of the merchant
  relation's linear layer of the edge's source row.  The reference applies that layer to every edge's source row and
  then sums; the kernel first sums the weighted raw 64 features (and the weights themselves, as a 65th column) per
  destination, and applies the layer once per destination inside its dense stage:
      Σ_e w_e · (x_e · Wrᵀ + br)  =  (Σ_e w_e · x_e) · Wrᵀ + (Σ_e w_e) · br.
  This is distributivity, valid for real numbers; the precondition (every float input finite) makes the merchant
  features, edge weights, matrix and bias real.  Everything else agrees operation by operation on the extended reals:
  a change of float format is the identity, a matrix product is the same sum however it is tiled or split into two
  128-column halves, the lane sum against the output weights is the reference's product with a one-column matrix,
  and the logistic function is `1 / (1 + exp (−z))`.  Both programs read the same wrapped and clamped source rows
  and add into the same destination rows, so the gather and the scatter contribute the same index sets on both
  sides.  The account→merchant branch of the reference does not reach the result.

  The modules: `Spec` (the mathematics, one row at a time, and the laws), `LibRows` (row gather and row scatter-add
  read at an index), `LibKeepdims` (column forms of a row reduction), `Finite` (real-valued inputs from the
  precondition), `RefValue` (the reference is the result vector), `KernelPay` / `KernelHost` / `KernelArray` (the
  kernel's body at a row, the arrays it is given, the tiles assembled and the run).
-/
import proofs.«428456_j40785009443638_2_alg».proof.Defs
import proofs.«428456_j40785009443638_2_alg».proof.Proof.Gen.Kernel
import proofs.«428456_j40785009443638_2_alg».proof.Proof.Gen.Kernel.Skeleton
import proofs.«428456_j40785009443638_2_alg».proof.Proof.Gen.Kernel.Launch
import proofs.«428456_j40785009443638_2_alg».proof.Proof.Gen.Kernel.Points
import proofs.«428456_j40785009443638_2_alg».proof.Proof.Gen.Kernel.Frame
import proofs.«428456_j40785009443638_2_alg».proof.Proof.Gen.KernelIdeal
import proofs.«428456_j40785009443638_2_alg».proof.Proof.Gen.KernelIdeal.Skeleton
import proofs.«428456_j40785009443638_2_alg».proof.Proof.Gen.KernelIdeal.Launch
import proofs.«428456_j40785009443638_2_alg».proof.Proof.Gen.KernelIdeal.Points
import proofs.«428456_j40785009443638_2_alg».proof.Proof.Gen.KernelIdeal.Frame
import proofs.«428456_j40785009443638_2_alg».proof.Proof.Gen.ReferenceIdeal
import proofs.«428456_j40785009443638_2_alg».proof.Proof.Gen.Pre_finite_inputs
import proofs.«428456_j40785009443638_2_alg».proof.Proof.Gen.ReferenceIdeal.Run
import proofs.«428456_j40785009443638_2_alg».proof.Proof.Gen.ReferenceIdeal.Read
import proofs.«428456_j40785009443638_2_alg».proof.Proof.Finite
import proofs.«428456_j40785009443638_2_alg».proof.Proof.RefValue
import proofs.«428456_j40785009443638_2_alg».proof.Proof.KernelArray
import Idealize.ShloMosaic.Adequacy
import Idealize.ShloMosaic.Init

noncomputable section

namespace Cert.Proof

open Idealize.ShloMosaic Idealize.SL.Sem

/-- The word-level kernel's frame: generated whole. -/
theorem frame_kernel : Cert.frame_Kernel := fun m ρ _ => Cert.Kernel.Gen.frame m ρ

/-- The idealized kernel's frame: generated whole. -/
theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- Both programs wrap a negative source number the same way. -/
theorem wrap_eq (x : IVec Cert.KernelIdeal.S1000000 32) :
    Cert.ReferenceIdeal.Read.val_main_v38 (F := Ideal) x = Cert.KernelIdeal.KHost.wrapSrc x := rfl

/-- The two idealized programs end with equal results: the kernel's run ends at the result vector of its launch
    contents; the reference's run ends at its composed term of contents that agree with the kernel's, which under
    the precondition is that same vector. -/
theorem algebraic : Cert.algebraic_KernelIdeal_ReferenceIdeal := by
  intro m ρ m' ρ' hpre hagree
  refine ⟨fun c => Cert.KernelIdeal.KValue.outArr m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19, a20, a21⟩ := hagree c
  rw [Cert.ReferenceIdeal.Read.val_main_v71_eq, a0, a1, a5, a6, a7, a8, a9, a14, a15, a16, a17, a20, a21]
  obtain ⟨hx1, hx7, hx14, hx15⟩ := Cert.FiniteInputs.real_of_pre _ _ _ _ _ _ _ _ _ _ _ _ _ _ _ _ _ _ _ _ _ _ (hpre c)
  rw [Cert.ReferenceIdeal.RefValue.result_eq _ _ _ _ _ _ _ _ _ _ _ _ _ hx1 hx7 hx14 hx15, wrap_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
